-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S8192x8192 : Shape := ⟨2, ![8192, 8192]⟩
abbrev S4096x8192 : Shape := ⟨2, ![4096, 8192]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S8192 .f32) (main_arg5 : FVec F S4096x8192 .f32) (main_arg6 : FVec F S4096 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S4096x8192 .f32 := Host.absf main_arg5
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S8192x4096 .f32) (main_arg2 : FVec F S8192 .f32) (main_arg3 : FVec F S8192x8192 .f32) (main_arg4 : FVec F S8192 .f32) (main_arg5 : FVec F S4096x8192 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_v13 main_v16
-- ==== Kernel.lean ====
abbrev S8192x4096 : Shape := ⟨2, ![8192, 4096]⟩
abbrev S8192 : Shape := ⟨1, ![8192]⟩
abbrev S8192x8192 : Shape := ⟨2, ![8192, 8192]⟩
abbrev S4096x8192 : Shape := ⟨2, ![4096, 8192]⟩
abbrev S4096 : Shape := ⟨1, ![4096]⟩
abbrev S_ : Shape := ⟨0, ![]⟩
abbrev S1x8192 : Shape := ⟨2, ![1, 8192]⟩
abbrev S1024x1024 : Shape := ⟨2, ![1024, 1024]⟩
abbrev S1x1024 : Shape := ⟨2, ![1, 1024]⟩
abbrev S1x4096 : Shape := ⟨2, ![1, 4096]⟩

abbrev nBuf : Space → Nat
  | .hbm => 86
  | .vmem => 27
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .f32⟩
  | .hbm, ⟨3, _⟩ => ⟨S8192x8192, .f32⟩
  | .hbm, ⟨4, _⟩ => ⟨S8192, .f32⟩
  | .hbm, ⟨5, _⟩ => ⟨S4096x8192, .f32⟩
  | .hbm, ⟨6, _⟩ => ⟨S4096, .f32⟩
  | .hbm, ⟨7, _⟩ => ⟨S8192x4096, .bf16⟩
  | .hbm, ⟨8, _⟩ => ⟨S8192x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x4096, .f32⟩
  | .hbm, ⟨16, _⟩ => ⟨S8192x4096, .i1⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S4096x8192, .f32⟩
  | .hbm, ⟨31, _⟩ => ⟨S4096x8192, .bf16⟩
  | .hbm, ⟨32, _⟩ => ⟨S1x8192, .f32⟩
  | .hbm, ⟨33, _⟩ => ⟨S8192x8192, .bf16⟩
  | .hbm, ⟨34, _⟩ => ⟨S8192x8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192x8192, .f32⟩
  | .hbm, ⟨42, _⟩ => ⟨S8192x8192, .i1⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S8192x8192, .bf16⟩
  | .hbm, ⟨58, _⟩ => ⟨S1x8192, .f32⟩
  | .hbm, ⟨59, _⟩ => ⟨S8192x8192, .bf16⟩
  | .hbm, ⟨60, _⟩ => ⟨S4096x8192, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S4096x8192, .f32⟩
  | .hbm, ⟨68, _⟩ => ⟨S4096x8192, .i1⟩
  | .hbm, ⟨69, _⟩ => ⟨S4096x8192, .f32⟩
  | .hbm, ⟨70, _⟩ => ⟨S4096x8192, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S4096x8192, .f32⟩
  | .hbm, ⟨79, _⟩ => ⟨S4096x8192, .f32⟩
  | .hbm, ⟨80, _⟩ => ⟨S4096x8192, .f32⟩
  | .hbm, ⟨81, _⟩ => ⟨S4096x8192, .f32⟩
  | .hbm, ⟨82, _⟩ => ⟨S8192x4096, .f32⟩
  | .hbm, ⟨83, _⟩ => ⟨S8192x4096, .bf16⟩
  | .hbm, ⟨84, _⟩ => ⟨S1x4096, .f32⟩
  | .hbm, ⟨85, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_cst_13 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_cst_15 : Ref sig .tc := ⟨.hbm, 73, rfl⟩
abbrev main_v50 : Ref sig .tc := ⟨.hbm, 74, rfl⟩
abbrev main_cst_16 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 8, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 4, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  bitsLt_bf16_f32 : FTy.bits .bf16 < FTy.bits .f32
  reducesTo_S8192x4096_S_d0_1 : S8192x4096.ReducesTo [0, 1] S_
  h_S_ : 0 < S_.numel
  bcast_S_S8192x4096 : S_.BroadcastsInDim S8192x4096 (![] : Fin 0 → Fin S8192x4096.rank)
  transposes_S8192x4096_S4096x8192_1_0 : S8192x4096.Transposes [1, 0] S4096x8192
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  reducesTo_S8192x8192_S_d0_1 : S8192x8192.ReducesTo [0, 1] S_
  bcast_S_S8192x8192 : S_.BroadcastsInDim S8192x8192 (![] : Fin 0 → Fin S8192x8192.rank)
  transposes_S8192x8192_S8192x8192_1_0 : S8192x8192.Transposes [1, 0] S8192x8192
  reducesTo_S4096x8192_S_d0_1 : S4096x8192.ReducesTo [0, 1] S_
  bcast_S_S4096x8192 : S_.BroadcastsInDim S4096x8192 (![] : Fin 0 → Fin S4096x8192.rank)
  transposes_S4096x8192_S8192x4096_1_0 : S4096x8192.Transposes [1, 0] S8192x4096
  shapeCasts_S4096_S1x4096 : S4096.ShapeCasts S1x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x8192.size a
  hwx0_1 : ∀ i : grid0.Coords, EltTy.bits .bf16 = 32 ∨ (Rect.block (s := S4096x8192) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .bf16 = 32 ∨ (Rect.block (s := S8192x8192) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .bf16 = 32 ∨ (Rect.block (s := S8192x8192) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .bf16 = 32 ∨ (Rect.block (s := S8192x8192) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .bf16 = 32 ∨ (Rect.block (s := S8192x8192) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x4096.size a
  hwx2_1 : ∀ i : grid2.Coords, EltTy.bits .bf16 = 32 ∨ (Rect.block (s := S8192x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x4096.size a
  hwx2_3 : ∀ i : grid2.Coords, EltTy.bits .f32 = 32 ∨ (Rect.block (s := S8192x4096) S1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v20) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v40) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192 : Shape := ⟨1, ![8192]⟩
abbrev S8192x8192 : Shape := ⟨2, ![8192, 8192]⟩
abbrev S4096x8192 : Shape := ⟨2, ![4096, 8192]⟩
abbrev S4096 : Shape := ⟨1, ![4096]⟩
abbrev S_ : Shape := ⟨0, ![]⟩
abbrev S1x8192 : Shape := ⟨2, ![1, 8192]⟩
abbrev S1x4096 : Shape := ⟨2, ![1, 4096]⟩

abbrev nBuf : Space → Nat
  | .hbm => 94
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .f32⟩
  | .hbm, ⟨3, _⟩ => ⟨S8192x8192, .f32⟩
  | .hbm, ⟨4, _⟩ => ⟨S8192, .f32⟩
  | .hbm, ⟨5, _⟩ => ⟨S4096x8192, .f32⟩
  | .hbm, ⟨6, _⟩ => ⟨S4096, .f32⟩
  | .hbm, ⟨7, _⟩ => ⟨S8192x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x4096, .f32⟩
  | .hbm, ⟨15, _⟩ => ⟨S8192x4096, .i1⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S4096x8192, .f32⟩
  | .hbm, ⟨30, _⟩ => ⟨S8192x8192, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192x8192, .f32⟩
  | .hbm, ⟨45, _⟩ => ⟨S8192x8192, .i1⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S1x8192, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S4096x8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S4096x8192, .f32⟩
  | .hbm, ⟨75, _⟩ => ⟨S4096x8192, .i1⟩
  | .hbm, ⟨76, _⟩ => ⟨S4096x8192, .f32⟩
  | .hbm, ⟨77, _⟩ => ⟨S4096x8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S4096x8192, .f32⟩
  | .hbm, ⟨86, _⟩ => ⟨S4096x8192, .f32⟩
  | .hbm, ⟨87, _⟩ => ⟨S4096x8192, .f32⟩
  | .hbm, ⟨88, _⟩ => ⟨S4096x8192, .f32⟩
  | .hbm, ⟨89, _⟩ => ⟨S8192x4096, .f32⟩
  | .hbm, ⟨90, _⟩ => ⟨S8192x4096, .f32⟩
  | .hbm, ⟨91, _⟩ => ⟨S1x4096, .f32⟩
  | .hbm, ⟨92, _⟩ => ⟨S8192x4096, .f32⟩
  | .hbm, ⟨93, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call1_cst : Ref sig .tc := ⟨.hbm, 64, rfl⟩
abbrev main_call1_v0 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_cst_12 : Ref sig .tc := ⟨.hbm, 70, rfl⟩
abbrev main_v46 : Ref sig .tc := ⟨.hbm, 71, rfl⟩
abbrev main_cst_13 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_14 : Ref sig .tc := ⟨.hbm, 78, rfl⟩
abbrev main_v52 : Ref sig .tc := ⟨.hbm, 79, rfl⟩
abbrev main_cst_15 : Ref sig .tc := ⟨.hbm, 80, rfl⟩
abbrev main_v53 : Ref sig .tc := ⟨.hbm, 81, rfl⟩
abbrev main_cst_16 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  reducesTo_S8192x4096_S_d0_1 : S8192x4096.ReducesTo [0, 1] S_
  h_S_ : 0 < S_.numel
  bcast_S_S8192x4096 : S_.BroadcastsInDim S8192x4096 (![] : Fin 0 → Fin S8192x4096.rank)
  transposes_S8192x4096_S4096x8192_1_0 : S8192x4096.Transposes [1, 0] S4096x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  transposes_S8192x8192_S8192x8192_1_0 : S8192x8192.Transposes [1, 0] S8192x8192
  reducesTo_S4096x8192_S_d0_1 : S4096x8192.ReducesTo [0, 1] S_
  bcast_S_S4096x8192 : S_.BroadcastsInDim S4096x8192 (![] : Fin 0 → Fin S4096x8192.rank)
  transposes_S4096x8192_S8192x4096_1_0 : S4096x8192.Transposes [1, 0] S8192x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x8192_S8192x8192_1_0_0_1_n_n_wf : DotDims.WF S8192x4096 S4096x8192 S8192x8192 [1] [0] [0] [1] [] []
  dot_S8192x8192_S8192x8192_S8192x8192_1_0_0_1_n_n_wf : DotDims.WF S8192x8192 S8192x8192 S8192x8192 [1] [0] [0] [1] [] []
  dot_S8192x8192_S8192x4096_S8192x4096_1_0_0_1_n_n_wf : DotDims.WF S8192x8192 S8192x4096 S8192x4096 [1] [0] [0] [1] [] []

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf
def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf

class Facts : Prop extends Facts₀ where

variable [Facts]
-- ==== Proof.KB.Region0.lean ====
/-
  Pallas call 0 (the first dense layer) as one pipelined region, at any float instance and at any contents
  `V` of the core's buffers when the region is entered.

  The grid has 8 * 8 * 4 points; point t has coordinates (i, j, k) with k = t mod 4 the block of the
  contracted axis.  At each point the body adds the product of a 1024 x 1024 block of the activations with a
  1024 x 1024 block of the weights into a scratch accumulator it keeps between points; at k = 0 it first
  clears the accumulator, and at k = 3 it adds the bias row, applies the rectifier, narrows and stores the
  output block, which the pipeline then writes back.  At the other points the output's staging buffer is not
  touched.

  This module fixes what the accumulator holds after each point (`accAt0`, by recursion on the point), the
  proof data of the pipeline built on it (`dat0`), the body's Hoare triples in its three control cases, and the
  body obligation at every point.
-/
import proofs.«134509_j20693152432262_1_alg».proof.Proof.Gen.Kernel.Launch
import proofs.«134509_j20693152432262_1_alg».proof.Proof.Gen.Kernel.Skeleton
import proofs.«134509_j20693152432262_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, in closed form over the grid -/

/-- The first conditional of the body: the contracted block index k is 0 (clear the accumulator). -/
abbrev cond0_0 (i : grid0.Coords) : Prop := (Scalar.cmpi .ne (Scalar.extui (Scalar.cmpi .eq (BitVec.ofNat 32 (i 2).val) 0#32)) 0#32) = 1#1
/-- The second conditional: k is the last block (finish and store the output block). -/
abbrev cond0_1 (i : grid0.Coords) : Prop := k0_cond2 i = 1#1

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)

/-- The output window is idle exactly where the last-block condition fails, and is not written back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- The whole-buffer rectangles of the body start at offset zero on both axes. -/
theorem hzA0 : (![0, 0] : Fin S1024x1024.rank → Nat) = fun _ => 0 := by funext a; fin_cases a <;> rfl
theorem hzB0 : (![0, 0] : Fin S1x1024.rank → Nat) = fun _ => 0 := by funext a; fin_cases a <;> rfl

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it was fetched there
    (unfetched, the block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's three control cases -/

/-- The scratch accumulator, a whole scoped buffer of the kernel's own. -/
abbrev scM0 : Memref sig .tc .vmem S1024x1024 .f32 := Memref.whole cc0_scratch0

set_option maxHeartbeats 4000000 in
/-- k = 0 and not the last block: the accumulator, whatever it held, ends at the product block added to zero. -/
theorem body0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.bf16)) (harg6 : arg6.IsWhole) (arg7 : Memref sig .tc .vmem S1024x1024 .f32) (harg7 : arg7.IsWhole)
    (hc0 : cond0_0 i) (hc1 : ¬cond0_1 i)
    (x0 : Vec F S1024x1024 .bf16) (x1 : Vec F S1024x1024 .bf16)
    (E : Set ℕ) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k0_pay2 k0_pay1 x0 x1)) -∗ K ⟨⟩))
      ⊢ wp frame (wpE (defs₀ (F := F)) Variants.none c none) E (cc0__mlp_kernel i arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%ds, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_cons_self, View.mem_set_unit_zero hzA0 inb_S1024x1024_S1024x1024_0_0 y⟩)]
  rw [View.canon_cons_unit_zero hzA0]
  simp only [View.readAt_eq_ld, harg3.read_unread, harg4.read_unread, View.readCov_unit_zero (S := S1024x1024) _ hzA0, View.ld_unit_zero (S := S1024x1024) hzA0]

set_option maxHeartbeats 4000000 in
/-- Neither the first nor the last block: the accumulator gains the product block. -/
theorem body0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.bf16)) (harg6 : arg6.IsWhole) (arg7 : Memref sig .tc .vmem S1024x1024 .f32) (harg7 : arg7.IsWhole)
    (hc0 : ¬cond0_0 i) (hc1 : ¬cond0_1 i)
    (x0 : Vec F S1024x1024 .bf16) (x1 : Vec F S1024x1024 .bf16) (xs0 : Vec F S1024x1024 .f32)
    (E : Set ℕ) (K : PUnit → sProp 𝕄) :
    iprop(owns (c : Thread nD τ) arg3 fullShare x0 ∗ owns (c : Thread nD τ) arg4 fullShare x1 ∗ owns (c : Thread nD τ) arg7 fullShare xs0
        ∗ (iprop(owns (c : Thread nD τ) arg3 fullShare x0 ∗ owns (c : Thread nD τ) arg4 fullShare x1
            ∗ owns (c : Thread nD τ) arg7 fullShare (k0_pay2 xs0 x0 x1)) -∗ K ⟨⟩))
      ⊢ wp frame (wpE (defs₀ (F := F)) Variants.none c none) E (cc0__mlp_kernel i arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_singleton_self _, View.mem_set_unit_zero hzA0 inb_S1024x1024_S1024x1024_0_0 y⟩)]
  rw [View.canon_unit_zero hzA0]
  simp only [View.readAt_eq_ld, harg7.read_unread, harg3.read_unread, harg4.read_unread, View.ld_unit_zero (S := S1024x1024) hzA0]

set_option maxHeartbeats 4000000 in
/-- The last block (and not the first): the accumulator gains the product block, and the output's staging buffer,
    whatever it held, ends at the finished block computed from the accumulator and the bias row. -/
theorem body0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.bf16)) (harg6 : arg6.IsWhole) (arg7 : Memref sig .tc .vmem S1024x1024 .f32) (harg7 : arg7.IsWhole)
    (hc0 : ¬cond0_0 i) (hc1 : cond0_1 i)
    (x0 : Vec F S1024x1024 .bf16) (x1 : Vec F S1024x1024 .bf16) (x2 : Vec F S1x1024 .f32) (xs0 : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 xs0 x0 x1) x2) ∗ owns (c : Thread nD τ) arg7 fullShare (k0_pay2 xs0 x0 x1)) -∗ K ⟨⟩))
      ⊢ wp frame (wpE (defs₀ (F := F)) Variants.none c none) E (cc0__mlp_kernel i arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg3.eq_unread hf0; obtain rfl := harg4.eq_unread hf1; obtain rfl := harg5.eq_unread hf2; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [View.read_writes_eq_canon _ _ _ (fun y => ⟨_, List.mem_singleton_self _, View.mem_set_unit_zero hzA0 inb_S1024x1024_S1024x1024_0_0 y⟩)]
    sl_unfold_words
    rw [View.canon_unit_zero hzA0]
    simp only [View.readAt_eq_ld, harg7.read_unread, harg3.read_unread, harg4.read_unread, harg5.read_unread, View.readCov_unit_zero (S := S1024x1024) _ hzA0, View.ld_unit_zero (S := S1024x1024) hzA0, View.ld_unit_zero (S := S1x1024) hzB0]
  · iexists _; isplitr
    swap; · iexact HS0
    ipureintro
    sl_unfold_words
    rw [View.read_writes_eq_canon _ _ _ (fun y => ⟨_, List.mem_singleton_self _, View.mem_set_unit_zero hzA0 inb_S1024x1024_S1024x1024_0_0 y⟩)]
    rw [View.canon_unit_zero hzA0]
    simp only [View.readAt_eq_ld, harg7.read_unread, harg3.read_unread, harg4.read_unread, View.ld_unit_zero (S := S1024x1024) hzA0]

/-! ## What the accumulator holds after each point -/

/-- The accumulator after the body at position `n`: at a point with k = 0 the product of the point's two blocks
    added to zero, at any other point the product added to what the point before left. -/
def accAt0 (c : Dev nD) : (n : ℕ) → n < cfg0.N → Vec F S1024x1024 .f32
  | 0, hn => k0_pay2 k0_pay1 (iblk0 V c 0 ⟨0, hn⟩) (iblk0 V c 1 ⟨0, hn⟩)
  | n + 1, hn =>
    if (n + 1) % 4 = 0 then k0_pay2 k0_pay1 (iblk0 V c 0 ⟨n + 1, hn⟩) (iblk0 V c 1 ⟨n + 1, hn⟩)
    else k0_pay2 (accAt0 c n (Nat.lt_of_succ_lt hn)) (iblk0 V c 0 ⟨n + 1, hn⟩) (iblk0 V c 1 ⟨n + 1, hn⟩)

/-- At a point with k = 0 the accumulator restarts. -/
theorem accAt0_reset (c : Dev nD) (t : Fin cfg0.N) (h0 : t.val % 4 = 0) :
    accAt0 V c t.val t.isLt = k0_pay2 k0_pay1 (iblk0 V c 0 t) (iblk0 V c 1 t) := by
  obtain ⟨n, hn⟩ := t
  cases n with
  | zero => rfl
  | succ n => exact (if_pos h0)

/-- At any other point it continues from the point before. -/
theorem accAt0_step (c : Dev nD) (t : Fin cfg0.N) (h0 : ¬t.val % 4 = 0) :
    accAt0 V c t.val t.isLt = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact (if_neg h0)

/-! ## The region invariant -/

/-- The core's scoped buffers other than this call's staging buffers and its accumulator, at some contents each:
    carried through the region unopened. -/
abbrev rest0 (c : Dev nD) : sProp 𝕄 :=
  Pipeline.scopedRestBut (Ix := Unit) (Name := ℕ) (U := UR sig nD τ) (Lvl := ℕ) (Val := Elt F) spec0 c [cc0_scratch0]

/-- What the launch hands the region, with the accumulator split out as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [Idealize.SL.BI.bigSepL_singleton, scM0, owns_whole]; try rfl

/-- The invariant before position `n`: before the first point what the launch hands over; afterwards the accumulator
    at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ rest0 c) ∗ (∃ r, prngReg c r)) := by
  cases n with
  | zero => exact absurd rfl hz
  | succ n => rfl

/-! ## The pipeline's proof data -/

/-- The proof data of pipeline 0 on core `c`: the arrays as the region finds them; after the body each input's
    buffer at its block and the output's at the finished block computed from the accumulator and the bias block (the
    value is consulted only at the points with k = 3, where the body stores it); the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (accAt0 V c t.val t.isLt) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The closed forms say which control case the point is in; the inputs' staging buffers
    hold their blocks; the invariant hands over the accumulator at what the point before left (anything at the first
    point) and takes it back at this point's contents; at the points with k < 3 the output's staging buffer is handed
    back as found, at k = 3 it ends at the finished block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from rfl, after0_0]
  rw [show (dat0 V c).leavesExact 1 t = owns (c : Thread nD τ) (st0_1 t) fullShare ((dat0 V c).after 1 t) from rfl, after0_1]
  rw [show (dat0 V c).leavesExact 2 t = owns (c : Thread nD τ) (st0_2 t) fullShare ((dat0 V c).after 2 t) from rfl, after0_2]
  have hN : t.val < 256 := lt_of_lt_of_eq t.isLt (show cfg0.N = 256 from N_0)
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [accAt0_reset V c t h0]
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply (body0_A c (grid0.coords t) _ _ _ _ _ _ _ _ _ _ hc0 hc1 (iblk0 V c 0 t) (iblk0 V c 1 t) Set.univ _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply (body0_A c (grid0.coords t) _ _ _ _ _ _ _ _ _ _ hc0 hc1 (iblk0 V c 0 t) (iblk0 V c 1 t) Set.univ _)
      isplitl [H0]; · iexact H0
      isplitl [H1]; · iexact H1
      isplitl [HS0]; · iexists _; iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond0_0 (grid0.coords t) := fun h => h0 ((hcond0_0 t).mp h)
    by_cases h1 : t.val % 4 = 3
    · have hc1 : cond0_1 (grid0.coords t) := (hcond0_1 t).mpr h1
      rw [show (dat0 V c).leavesExact 3 t = owns (c : Thread nD τ) (st0_3 t) fullShare ((dat0 V c).after 3 t) from by
        unfold Dat.leavesExact; rw [liveAt0_3 t hc1], after0_3]
      rw [accAt0_step V c t h0]
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply (body0_C c (grid0.coords t) _ _ _ _ _ _ _ _ _ _ hc0 hc1 (iblk0 V c 0 t) (iblk0 V c 1 t) (iblk0 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 3 t (idleAt0_3 t hc1) (noFlush0_3 t hc1)]
      rw [accAt0_step V c t h0]
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply (body0_B c (grid0.coords t) _ _ _ _ _ _ _ _ _ _ hc0 hc1 (iblk0 V c 0 t) (iblk0 V c 1 t) _ Set.univ _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the launch's form back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega), PhiA0_eq]
  iintro ⟨⟨HS0, HR⟩, Hg⟩
  isplitl [HS0 HR]
  · isplitl [HS0]; · iexists _; iexact HS0
    iexact HR
  iexact Hg

end Cert.Kernel.Hand
end
-- ==== Proof.KB.Region1.lean ====
/-
  Pallas call 1 (the second dense layer) as one pipelined region, at any float instance and at any contents
  `V` of the core's buffers when the region is entered.

  The grid has 8 * 8 * 8 points; point t has coordinates (i, j, k) with k = t mod 8 the block of the
  contracted axis.  At each point the body adds the product of a 1024 x 1024 block of the activations with a
  1024 x 1024 block of the weights into a scratch accumulator it keeps between points; at k = 0 it first
  clears the accumulator, and at k = 7 it adds the bias row, applies the rectifier, narrows and stores the
  output block, which the pipeline then writes back.  At the other points the output's staging buffer is not
  touched.

  This module fixes what the accumulator holds after each point (`accAt1`, by recursion on the point), the
  proof data of the pipeline built on it (`dat1`), the body's Hoare triples in its three control cases, and the
  body obligation at every point.
-/
import proofs.«134509_j20693152432262_1_alg».proof.Proof.Gen.Kernel.Launch
import proofs.«134509_j20693152432262_1_alg».proof.Proof.Gen.Kernel.Skeleton
import proofs.«134509_j20693152432262_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, in closed form over the grid -/

/-- The first conditional of the body: the contracted block index k is 0 (clear the accumulator). -/
abbrev cond1_0 (i : grid1.Coords) : Prop := (Scalar.cmpi .ne (Scalar.extui (Scalar.cmpi .eq (BitVec.ofNat 32 (i 2).val) 0#32)) 0#32) = 1#1
/-- The second conditional: k is the last block (finish and store the output block). -/
abbrev cond1_1 (i : grid1.Coords) : Prop := k1_cond2 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

/-- The output window is idle exactly where the last-block condition fails, and is not written back there. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The whole-buffer rectangles of the body start at offset zero on both axes. -/
theorem hzA1 : (![0, 0] : Fin S1024x1024.rank → Nat) = fun _ => 0 := by funext a; fin_cases a <;> rfl
theorem hzB1 : (![0, 0] : Fin S1x1024.rank → Nat) = fun _ => 0 := by funext a; fin_cases a <;> rfl

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it was fetched there
    (unfetched, the block index has not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's three control cases -/

/-- The scratch accumulator, a whole scoped buffer of the kernel's own. -/
abbrev scM1 : Memref sig .tc .vmem S1024x1024 .f32 := Memref.whole cc1_scratch0

set_option maxHeartbeats 4000000 in
/-- k = 0 and not the last block: the accumulator, whatever it held, ends at the product block added to zero. -/
theorem body1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.bf16)) (harg6 : arg6.IsWhole) (arg7 : Memref sig .tc .vmem S1024x1024 .f32) (harg7 : arg7.IsWhole)
    (hc0 : cond1_0 i) (hc1 : ¬cond1_1 i)
    (x0 : Vec F S1024x1024 .bf16) (x1 : Vec F S1024x1024 .bf16)
    (E : Set ℕ) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k1_pay2 k1_pay1 x0 x1)) -∗ K ⟨⟩))
      ⊢ wp frame (wpE (defs₀ (F := F)) Variants.none c none) E (cc1__mlp_kernel i arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%ds, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_cons_self, View.mem_set_unit_zero hzA1 inb_S1024x1024_S1024x1024_0_0 y⟩)]
  rw [View.canon_cons_unit_zero hzA1]
  simp only [View.readAt_eq_ld, harg3.read_unread, harg4.read_unread, View.readCov_unit_zero (S := S1024x1024) _ hzA1, View.ld_unit_zero (S := S1024x1024) hzA1]

set_option maxHeartbeats 4000000 in
/-- Neither the first nor the last block: the accumulator gains the product block. -/
theorem body1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.bf16)) (harg6 : arg6.IsWhole) (arg7 : Memref sig .tc .vmem S1024x1024 .f32) (harg7 : arg7.IsWhole)
    (hc0 : ¬cond1_0 i) (hc1 : ¬cond1_1 i)
    (x0 : Vec F S1024x1024 .bf16) (x1 : Vec F S1024x1024 .bf16) (xs0 : Vec F S1024x1024 .f32)
    (E : Set ℕ) (K : PUnit → sProp 𝕄) :
    iprop(owns (c : Thread nD τ) arg3 fullShare x0 ∗ owns (c : Thread nD τ) arg4 fullShare x1 ∗ owns (c : Thread nD τ) arg7 fullShare xs0
        ∗ (iprop(owns (c : Thread nD τ) arg3 fullShare x0 ∗ owns (c : Thread nD τ) arg4 fullShare x1
            ∗ owns (c : Thread nD τ) arg7 fullShare (k1_pay2 xs0 x0 x1)) -∗ K ⟨⟩))
      ⊢ wp frame (wpE (defs₀ (F := F)) Variants.none c none) E (cc1__mlp_kernel i arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_singleton_self _, View.mem_set_unit_zero hzA1 inb_S1024x1024_S1024x1024_0_0 y⟩)]
  rw [View.canon_unit_zero hzA1]
  simp only [View.readAt_eq_ld, harg7.read_unread, harg3.read_unread, harg4.read_unread, View.ld_unit_zero (S := S1024x1024) hzA1]

set_option maxHeartbeats 4000000 in
/-- The last block (and not the first): the accumulator gains the product block, and the output's staging buffer,
    whatever it held, ends at the finished block computed from the accumulator and the bias row. -/
theorem body1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.bf16)) (harg6 : arg6.IsWhole) (arg7 : Memref sig .tc .vmem S1024x1024 .f32) (harg7 : arg7.IsWhole)
    (hc0 : ¬cond1_0 i) (hc1 : cond1_1 i)
    (x0 : Vec F S1024x1024 .bf16) (x1 : Vec F S1024x1024 .bf16) (x2 : Vec F S1x1024 .f32) (xs0 : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 xs0 x0 x1) x2) ∗ owns (c : Thread nD τ) arg7 fullShare (k1_pay2 xs0 x0 x1)) -∗ K ⟨⟩))
      ⊢ wp frame (wpE (defs₀ (F := F)) Variants.none c none) E (cc1__mlp_kernel i arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg3.eq_unread hf0; obtain rfl := harg4.eq_unread hf1; obtain rfl := harg5.eq_unread hf2; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [View.read_writes_eq_canon _ _ _ (fun y => ⟨_, List.mem_singleton_self _, View.mem_set_unit_zero hzA1 inb_S1024x1024_S1024x1024_0_0 y⟩)]
    sl_unfold_words
    rw [View.canon_unit_zero hzA1]
    simp only [View.readAt_eq_ld, harg7.read_unread, harg3.read_unread, harg4.read_unread, harg5.read_unread, View.readCov_unit_zero (S := S1024x1024) _ hzA1, View.ld_unit_zero (S := S1024x1024) hzA1, View.ld_unit_zero (S := S1x1024) hzB1]
  · iexists _; isplitr
    swap; · iexact HS0
    ipureintro
    sl_unfold_words
    rw [View.read_writes_eq_canon _ _ _ (fun y => ⟨_, List.mem_singleton_self _, View.mem_set_unit_zero hzA1 inb_S1024x1024_S1024x1024_0_0 y⟩)]
    rw [View.canon_unit_zero hzA1]
    simp only [View.readAt_eq_ld, harg7.read_unread, harg3.read_unread, harg4.read_unread, View.ld_unit_zero (S := S1024x1024) hzA1]

/-! ## What the accumulator holds after each point -/

/-- The accumulator after the body at position `n`: at a point with k = 0 the product of the point's two blocks
    added to zero, at any other point the product added to what the point before left. -/
def accAt1 (c : Dev nD) : (n : ℕ) → n < cfg1.N → Vec F S1024x1024 .f32
  | 0, hn => k1_pay2 k1_pay1 (iblk1 V c 0 ⟨0, hn⟩) (iblk1 V c 1 ⟨0, hn⟩)
  | n + 1, hn =>
    if (n + 1) % 8 = 0 then k1_pay2 k1_pay1 (iblk1 V c 0 ⟨n + 1, hn⟩) (iblk1 V c 1 ⟨n + 1, hn⟩)
    else k1_pay2 (accAt1 c n (Nat.lt_of_succ_lt hn)) (iblk1 V c 0 ⟨n + 1, hn⟩) (iblk1 V c 1 ⟨n + 1, hn⟩)

/-- At a point with k = 0 the accumulator restarts. -/
theorem accAt1_reset (c : Dev nD) (t : Fin cfg1.N) (h0 : t.val % 8 = 0) :
    accAt1 V c t.val t.isLt = k1_pay2 k1_pay1 (iblk1 V c 0 t) (iblk1 V c 1 t) := by
  obtain ⟨n, hn⟩ := t
  cases n with
  | zero => rfl
  | succ n => exact (if_pos h0)

/-- At any other point it continues from the point before. -/
theorem accAt1_step (c : Dev nD) (t : Fin cfg1.N) (h0 : ¬t.val % 8 = 0) :
    accAt1 V c t.val t.isLt = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact (if_neg h0)

/-! ## The region invariant -/

/-- The core's scoped buffers other than this call's staging buffers and its accumulator, at some contents each:
    carried through the region unopened. -/
abbrev rest1 (c : Dev nD) : sProp 𝕄 :=
  Pipeline.scopedRestBut (Ix := Unit) (Name := ℕ) (U := UR sig nD τ) (Lvl := ℕ) (Val := Elt F) spec1 c [cc1_scratch0]

/-- What the launch hands the region, with the accumulator split out as a memref owned at some contents. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [Idealize.SL.BI.bigSepL_singleton, scM1, owns_whole]; try rfl

/-- The invariant before position `n`: before the first point what the launch hands over; afterwards the accumulator
    at what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega)) ∗ rest1 c) ∗ (∃ r, prngReg c r)) := by
  cases n with
  | zero => exact absurd rfl hz
  | succ n => rfl

/-! ## The pipeline's proof data -/

/-- The proof data of pipeline 1 on core `c`: the arrays as the region finds them; after the body each input's
    buffer at its block and the output's at the finished block computed from the accumulator and the bias block (the
    value is consulted only at the points with k = 7, where the body stores it); the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (accAt1 V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The closed forms say which control case the point is in; the inputs' staging buffers
    hold their blocks; the invariant hands over the accumulator at what the point before left (anything at the first
    point) and takes it back at this point's contents; at the points with k < 7 the output's staging buffer is handed
    back as found, at k = 7 it ends at the finished block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  have hN : t.val < 512 := lt_of_lt_of_eq t.isLt (show cfg1.N = 512 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [accAt1_reset V c t h0]
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩⟩
      iapply (body1_A c (grid1.coords t) _ _ _ _ _ _ _ _ _ _ hc0 hc1 (iblk1 V c 0 t) (iblk1 V c 1 t) Set.univ _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply (body1_A c (grid1.coords t) _ _ _ _ _ _ _ _ _ _ hc0 hc1 (iblk1 V c 0 t) (iblk1 V c 1 t) Set.univ _)
      isplitl [H0]; · iexact H0
      isplitl [H1]; · iexact H1
      isplitl [HS0]; · iexists _; iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3]
      rw [accAt1_step V c t h0]
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply (body1_C c (grid1.coords t) _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      rw [accAt1_step V c t h0]
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply (body1_B c (grid1.coords t) _ _ _ _ _ _ _ _ _ _ hc0 hc1 (iblk1 V c 0 t) (iblk1 V c 1 t) _ Set.univ _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the launch's form back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 512 := N_1; omega), PhiA1_eq]
  iintro ⟨⟨HS0, HR⟩, Hg⟩
  isplitl [HS0 HR]
  · isplitl [HS0]; · iexists _; iexact HS0
    iexact HR
  iexact Hg

end Cert.Kernel.Hand
end
-- ==== Proof.KB.Region2.lean ====
/-
  Pallas call 2 (the third dense layer) as one pipelined region, at any float instance and at any contents
  `V` of the core's buffers when the region is entered.

  The grid has 8 * 4 * 8 points; point t has coordinates (i, j, k) with k = t mod 8 the block of the
  contracted axis.  At each point the body adds the product of a 1024 x 1024 block of the activations with a
  1024 x 1024 block of the weights into a scratch accumulator it keeps between points; at k = 0 it first
  clears the accumulator, and at k = 7 it adds the bias row, applies the rectifier, narrows and stores the
  output block, which the pipeline then writes back.  At the other points the output's staging buffer is not
  touched.

  This module fixes what the accumulator holds after each point (`accAt2`, by recursion on the point), the
  proof data of the pipeline built on it (`dat2`), the body's Hoare triples in its three control cases, and the
  body obligation at every point.
-/
import proofs.«134509_j20693152432262_1_alg».proof.Proof.Gen.Kernel.Launch
import proofs.«134509_j20693152432262_1_alg».proof.Proof.Gen.Kernel.Skeleton
import proofs.«134509_j20693152432262_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, in closed form over the grid -/

/-- The first conditional of the body: the contracted block index k is 0 (clear the accumulator). -/
abbrev cond2_0 (i : grid2.Coords) : Prop := (Scalar.cmpi .ne (Scalar.extui (Scalar.cmpi .eq (BitVec.ofNat 32 (i 2).val) 0#32)) 0#32) = 1#1
/-- The second conditional: k is the last block (finish and store the output block). -/
abbrev cond2_1 (i : grid2.Coords) : Prop := k2_cond2 i = 1#1

theorem hcond2_0 : ∀ t : Fin cfg2.N, cond2_0 (grid2.coords t) ↔ t.val % 8 = 0 :=
  (by decide +kernel : ∀ t : Fin grid2.N, cond2_0 (grid2.coords t) ↔ t.val % 8 = 0)
theorem hcond2_1 : ∀ t : Fin cfg2.N, cond2_1 (grid2.coords t) ↔ t.val % 8 = 7 :=
  (by decide +kernel : ∀ t : Fin grid2.N, cond2_1 (grid2.coords t) ↔ t.val % 8 = 7)

/-- The output window is idle exactly where the last-block condition fails, and is not written back there. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-- The whole-buffer rectangles of the body start at offset zero on both axes. -/
theorem hzA2 : (![0, 0] : Fin S1024x1024.rank → Nat) = fun _ => 0 := by funext a; fin_cases a <;> rfl
theorem hzB2 : (![0, 0] : Fin S1x1024.rank → Nat) = fun _ => 0 := by funext a; fin_cases a <;> rfl

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether or not it was fetched there
    (unfetched, the block index has not moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's three control cases -/

/-- The scratch accumulator, a whole scoped buffer of the kernel's own. -/
abbrev scM2 : Memref sig .tc .vmem S1024x1024 .f32 := Memref.whole cc2_scratch0

set_option maxHeartbeats 4000000 in
/-- k = 0 and not the last block: the accumulator, whatever it held, ends at the product block added to zero. -/
theorem body2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.f32)) (harg6 : arg6.IsWhole) (arg7 : Memref sig .tc .vmem S1024x1024 .f32) (harg7 : arg7.IsWhole)
    (hc0 : cond2_0 i) (hc1 : ¬cond2_1 i)
    (x0 : Vec F S1024x1024 .bf16) (x1 : Vec F S1024x1024 .bf16)
    (E : Set ℕ) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k2_pay2 k2_pay1 x0 x1)) -∗ K ⟨⟩))
      ⊢ wp frame (wpE (defs₀ (F := F)) Variants.none c none) E (cc2__mlp_kernel i arg3 harg3 arg4 harg4 arg5 harg5 arg6 harg6 arg7 harg7) K := by
  simp only [cc2__mlp_kernel_eq_skeleton]; unfold cc2__mlp_kernel_skel
  unfold owns
  iintro ⟨⟨%f0, %hf0, H0⟩, ⟨%f1, %hf1, H1⟩, ⟨%ds, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_cons_self, View.mem_set_unit_zero hzA2 inb_S1024x1024_S1024x1024_0_0 y⟩)]
  rw [View.canon_cons_unit_zero hzA2]
  simp only [View.readAt_eq_ld, harg3.read_unread, harg4.read_unread, View.readCov_unit_zero (S := S1024x1024) _ hzA2, View.ld_unit_zero (S := S1024x1024) hzA2]

set_option maxHeartbeats 4000000 in
/-- Neither the first nor the last block: the accumulator gains the product block. -/
theorem body2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.f32)) (harg6 : arg6.IsWhole) (arg7 : Memref sig .tc .vmem S1024x1024 .f32) (harg7 : arg7.IsWhole)
    (hc0 : ¬cond2_0 i) (hc1 : ¬cond2_1 i)
    (x0 : Vec F S1024x1024 .bf16) (x1 : Vec F S1024x1024 .bf16) (xs0 : Vec F S1024x1024 .f32)
    (E : Set ℕ) (K : PUnit → sProp 𝕄) :
    iprop(owns (c : Thread nD τ) arg3 fullShare x0 ∗ owns (c : Thread nD τ) arg4 fullShare x1 ∗ owns (c : Thread nD τ) arg7 fullShare xs0
        ∗ (iprop(owns (c : Thread nD τ) arg3 fullShare x0 ∗ owns (c : Thread nD τ) arg4 fullShare x1
            ∗ owns (c : Thread nD τ) arg7 fullShare (k2_pay2 xs0 x0 x1)) -∗ K ⟨⟩))
      ⊢ wp frame (wpE (defs₀ (F := F)) Variants.none c none) E (cc2__mlp_kernel i arg3 harg3 arg4 harg4 arg5 harg5 arg6 harg6 arg7 harg7) K := by
  simp only [cc2__mlp_kernel_eq_skeleton]; unfold cc2__mlp_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_singleton_self _, View.mem_set_unit_zero hzA2 inb_S1024x1024_S1024x1024_0_0 y⟩)]
  rw [View.canon_unit_zero hzA2]
  simp only [View.readAt_eq_ld, harg7.read_unread, harg3.read_unread, harg4.read_unread, View.ld_unit_zero (S := S1024x1024) hzA2]

set_option maxHeartbeats 4000000 in
/-- The last block (and not the first): the accumulator gains the product block, and the output's staging buffer,
    whatever it held, ends at the finished block computed from the accumulator and the bias row. -/
theorem body2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.f32)) (harg6 : arg6.IsWhole) (arg7 : Memref sig .tc .vmem S1024x1024 .f32) (harg7 : arg7.IsWhole)
    (hc0 : ¬cond2_0 i) (hc1 : cond2_1 i)
    (x0 : Vec F S1024x1024 .bf16) (x1 : Vec F S1024x1024 .bf16) (x2 : Vec F S1x1024 .f32) (xs0 : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
        ∗ (iprop(owns (c : Thread nD τ) arg3 fullShare x0 ∗ owns (c : Thread nD τ) arg4 fullShare x1 ∗ owns (c : Thread nD τ) arg5 fullShare x2
            ∗ owns (c : Thread nD τ) arg6 fullShare (k2_pay3 (k2_pay2 xs0 x0 x1) x2) ∗ owns (c : Thread nD τ) arg7 fullShare (k2_pay2 xs0 x0 x1)) -∗ K ⟨⟩))
      ⊢ wp frame (wpE (defs₀ (F := F)) Variants.none c none) E (cc2__mlp_kernel i arg3 harg3 arg4 harg4 arg5 harg5 arg6 harg6 arg7 harg7) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg3.eq_unread hf0; obtain rfl := harg4.eq_unread hf1; obtain rfl := harg5.eq_unread hf2; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [View.read_writes_eq_canon _ _ _ (fun y => ⟨_, List.mem_singleton_self _, View.mem_set_unit_zero hzA2 inb_S1024x1024_S1024x1024_0_0 y⟩)]
    sl_unfold_words
    rw [View.canon_unit_zero hzA2]
    simp only [View.readAt_eq_ld, harg7.read_unread, harg3.read_unread, harg4.read_unread, harg5.read_unread, View.readCov_unit_zero (S := S1024x1024) _ hzA2, View.ld_unit_zero (S := S1024x1024) hzA2, View.ld_unit_zero (S := S1x1024) hzB2]
  · iexists _; isplitr
    swap; · iexact HS0
    ipureintro
    sl_unfold_words
    rw [View.read_writes_eq_canon _ _ _ (fun y => ⟨_, List.mem_singleton_self _, View.mem_set_unit_zero hzA2 inb_S1024x1024_S1024x1024_0_0 y⟩)]
    rw [View.canon_unit_zero hzA2]
    simp only [View.readAt_eq_ld, harg7.read_unread, harg3.read_unread, harg4.read_unread, View.ld_unit_zero (S := S1024x1024) hzA2]

/-! ## What the accumulator holds after each point -/

/-- The accumulator after the body at position `n`: at a point with k = 0 the product of the point's two blocks
    added to zero, at any other point the product added to what the point before left. -/
def accAt2 (c : Dev nD) : (n : ℕ) → n < cfg2.N → Vec F S1024x1024 .f32
  | 0, hn => k2_pay2 k2_pay1 (iblk2 V c 0 ⟨0, hn⟩) (iblk2 V c 1 ⟨0, hn⟩)
  | n + 1, hn =>
    if (n + 1) % 8 = 0 then k2_pay2 k2_pay1 (iblk2 V c 0 ⟨n + 1, hn⟩) (iblk2 V c 1 ⟨n + 1, hn⟩)
    else k2_pay2 (accAt2 c n (Nat.lt_of_succ_lt hn)) (iblk2 V c 0 ⟨n + 1, hn⟩) (iblk2 V c 1 ⟨n + 1, hn⟩)

/-- At a point with k = 0 the accumulator restarts. -/
theorem accAt2_reset (c : Dev nD) (t : Fin cfg2.N) (h0 : t.val % 8 = 0) :
    accAt2 V c t.val t.isLt = k2_pay2 k2_pay1 (iblk2 V c 0 t) (iblk2 V c 1 t) := by
  obtain ⟨n, hn⟩ := t
  cases n with
  | zero => rfl
  | succ n => exact (if_pos h0)

/-- At any other point it continues from the point before. -/
theorem accAt2_step (c : Dev nD) (t : Fin cfg2.N) (h0 : ¬t.val % 8 = 0) :
    accAt2 V c t.val t.isLt = k2_pay2 (accAt2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact (if_neg h0)

/-! ## The region invariant -/

/-- The core's scoped buffers other than this call's staging buffers and its accumulator, at some contents each:
    carried through the region unopened. -/
abbrev rest2 (c : Dev nD) : sProp 𝕄 :=
  Pipeline.scopedRestBut (Ix := Unit) (Name := ℕ) (U := UR sig nD τ) (Lvl := ℕ) (Val := Elt F) spec2 c [cc2_scratch0]

/-- What the launch hands the region, with the accumulator split out as a memref owned at some contents. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA
  rw [Pipeline.scopedRest_split_of_list spec2 c [cc2_scratch0] (by decide) (by decide)]
  simp only [Idealize.SL.BI.bigSepL_singleton, scM2, owns_whole]; try rfl

/-- The invariant before position `n`: before the first point what the launch hands over; afterwards the accumulator
    at what the point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (accAt2 V c n hn) ∗ rest2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare (accAt2 V c (n - 1) (by omega)) ∗ rest2 c) ∗ (∃ r, prngReg c r)) := by
  cases n with
  | zero => exact absurd rfl hz
  | succ n => rfl

/-! ## The pipeline's proof data -/

/-- The proof data of pipeline 2 on core `c`: the arrays as the region finds them; after the body each input's
    buffer at its block and the output's at the finished block computed from the accumulator and the bias block (the
    value is consulted only at the points with k = 7, where the body stores it); the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (accAt2 V c t.val t.isLt) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The closed forms say which control case the point is in; the inputs' staging buffers
    hold their blocks; the invariant hands over the accumulator at what the point before left (anything at the first
    point) and takes it back at this point's contents; at the points with k < 7 the output's staging buffer is handed
    back as found, at k = 7 it ends at the finished block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  rw [show (dat2 V c).leavesExact 2 t = owns (c : Thread nD τ) (st2_2 t) fullShare ((dat2 V c).after 2 t) from rfl, after2_2]
  have hN : t.val < 256 := lt_of_lt_of_eq t.isLt (show cfg2.N = 256 from N_2)
  by_cases h0 : t.val % 8 = 0
  · have h1 : ¬t.val % 8 = 7 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1)]
    rw [accAt2_reset V c t h0]
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩⟩
      iapply (body2_A c (grid2.coords t) _ _ _ _ _ _ _ _ _ _ hc0 hc1 (iblk2 V c 0 t) (iblk2 V c 1 t) Set.univ _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply (body2_A c (grid2.coords t) _ _ _ _ _ _ _ _ _ _ hc0 hc1 (iblk2 V c 0 t) (iblk2 V c 1 t) Set.univ _)
      isplitl [H0]; · iexact H0
      isplitl [H1]; · iexact H1
      isplitl [HS0]; · iexists _; iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond2_0 (grid2.coords t) := fun h => h0 ((hcond2_0 t).mp h)
    by_cases h1 : t.val % 8 = 7
    · have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3]
      rw [accAt2_step V c t h0]
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply (body2_C c (grid2.coords t) _ _ _ _ _ _ _ _ _ _ hc0 hc1 (iblk2 V c 0 t) (iblk2 V c 1 t) (iblk2 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1)]
      rw [accAt2_step V c t h0]
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply (body2_B c (grid2.coords t) _ _ _ _ _ _ _ _ _ _ hc0 hc1 (iblk2 V c 0 t) (iblk2 V c 1 t) _ Set.univ _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives the launch's form back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 256 := N_2; omega), PhiA2_eq]
  iintro ⟨⟨HS0, HR⟩, Hg⟩
  isplitl [HS0 HR]
  · isplitl [HS0]; · iexists _; iexact HS0
    iexact HR
  iexact Hg

end Cert.Kernel.Hand
end
-- ==== Proof.KB.Run.lean ====
/-
  The whole program as a run: three stretches of host operations, each followed by one pipelined region.
  Between two items the core holds every unscoped buffer at contents this module names by a fold from the
  launch memory: a host stretch applies its operations, a region overwrites its four arrays with what its
  pipeline leaves (the three inputs as entered, the output with every written-back block).  From the run come
  the frame (no item writes an argument array, so each ends holding its launch contents) and, for the value
  claim, the contents of every unscoped buffer at the end; the result array is the last region's output array.
-/
import proofs.«134509_j20693152432262_1_alg».proof.Proof.KB.Region0
import proofs.«134509_j20693152432262_1_alg».proof.Proof.KB.Region1
import proofs.«134509_j20693152432262_1_alg».proof.Proof.KB.Region2
import proofs.«134509_j20693152432262_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At region 0's exit: its arrays at what its pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- At region 2's exit: the end of the program. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-- A buffer that no host stretch writes and that is no region's array ends holding its launch contents. -/
theorem W6_untouched (c : Dev nD) (r : Ref sig .tc) (h0 : r ∉ hostOps0_W) (h1 : r ∉ hostOps1_W) (h2 : r ∉ hostOps2_W)
    (n0 : ∀ w, Pipeline.arrRef spec0 w ≠ r) (n1 : ∀ w, Pipeline.arrRef spec1 w ≠ r) (n2 : ∀ w, Pipeline.arrRef spec2 w ≠ r) :
    W6 m c (Proc.devRef .tc r) = m ((c : Thread nD τ).loc r) :=
  calc W6 m c (Proc.devRef .tc r)
    _ = W5 m c (Proc.devRef .tc r) := W6_of_ne m c r n2
    _ = W4 m c (Proc.devRef .tc r) := StableHlo.after_of_writes_sub hostOps2 _ hostOps2_writes h2
    _ = W3 m c (Proc.devRef .tc r) := W4_of_ne m c r n1
    _ = W2 m c (Proc.devRef .tc r) := StableHlo.after_of_writes_sub hostOps1 _ hostOps1_writes h1
    _ = W1 m c (Proc.devRef .tc r) := W2_of_ne m c r n0
    _ = W0 m c (Proc.devRef .tc r) := StableHlo.after_of_writes_sub hostOps0 _ hostOps0_writes h0
    _ = m ((c : Thread nD τ).loc r) := rfl

theorem W6_main_arg0 (c : Dev nD) : W6 m c (Proc.devRef .tc main_arg0) = m ((c : Thread nD τ).loc main_arg0) :=
  W6_untouched m c main_arg0 (by decide) (by decide) (by decide) (by decide) (by decide) (by decide)
theorem W6_main_arg1 (c : Dev nD) : W6 m c (Proc.devRef .tc main_arg1) = m ((c : Thread nD τ).loc main_arg1) :=
  W6_untouched m c main_arg1 (by decide) (by decide) (by decide) (by decide) (by decide) (by decide)
theorem W6_main_arg2 (c : Dev nD) : W6 m c (Proc.devRef .tc main_arg2) = m ((c : Thread nD τ).loc main_arg2) :=
  W6_untouched m c main_arg2 (by decide) (by decide) (by decide) (by decide) (by decide) (by decide)
theorem W6_main_arg3 (c : Dev nD) : W6 m c (Proc.devRef .tc main_arg3) = m ((c : Thread nD τ).loc main_arg3) :=
  W6_untouched m c main_arg3 (by decide) (by decide) (by decide) (by decide) (by decide) (by decide)
theorem W6_main_arg4 (c : Dev nD) : W6 m c (Proc.devRef .tc main_arg4) = m ((c : Thread nD τ).loc main_arg4) :=
  W6_untouched m c main_arg4 (by decide) (by decide) (by decide) (by decide) (by decide) (by decide)
theorem W6_main_arg5 (c : Dev nD) : W6 m c (Proc.devRef .tc main_arg5) = m ((c : Thread nD τ).loc main_arg5) :=
  W6_untouched m c main_arg5 (by decide) (by decide) (by decide) (by decide) (by decide) (by decide)
theorem W6_main_arg6 (c : Dev nD) : W6 m c (Proc.devRef .tc main_arg6) = m ((c : Thread nD τ).loc main_arg6) :=
  W6_untouched m c main_arg6 (by decide) (by decide) (by decide) (by decide) (by decide) (by decide)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at `W1`, left at `W2`. Its arrays are
    split out of the unscoped buffers and put back at their exit contents; the generator register and the scoped
    rest go into the region invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) ⊢ (Pipeline.ΦA spec0 c : sProp 𝕄) := by
      unfold Pipeline.ΦA
      iintro ⟨Hp, -, Hr⟩
      isplitl [Hr]; · iexact Hr
      iexact Hp
    exact h.trans (hin0 (U1 m) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (U1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at their exit contents; the generator register and the scoped
    rest go into the region invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) ⊢ (Pipeline.ΦA spec1 c : sProp 𝕄) := by
      unfold Pipeline.ΦA
      iintro ⟨Hp, -, Hr⟩
      isplitl [Hr]; · iexact Hr
      iexact Hp
    exact h.trans (hin1 (U3 m) c)
  hout c := by
    rw [Pipeline.ownSems0_none]
    have h : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (U3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at their exit contents; the generator register and the scoped
    rest go into the region invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm (F := F) 2).1
        ∗ Pipeline.scopedRest (Ix := Unit) (Name := ℕ) (U := UR sig nD τ) (Lvl := ℕ) (Val := Elt F) spec2 c) ⊢ (Pipeline.ΦA spec2 c : sProp 𝕄) := by
      unfold Pipeline.ΦA
      iintro ⟨Hp, -, Hr⟩
      isplitl [Hr]; · iexact Hr
      iexact Hp
    exact h.trans (hin2 (U5 m) c)
  hout c := by
    rw [Pipeline.ownSems0_none]
    have h : (Pipeline.ΦA spec2 c : sProp 𝕄) ⊢ iprop((∃ r, prngReg c r) ∗ BI.emp
        ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (U5 m) c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

set_option backward.isDefEq.respectTransparency.types false in
/-- THE RUN. From any memory with zero counters every weakly fair execution of the program terminates, nothing
    faulting, and in every final state each unscoped buffer of each core holds what the fold `W6` names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

/-- The run with the result array named: it is the last region's output array after the region, and the arguments
    are unchanged. -/
theorem run_result : θ_run defs (onTc (τ := τ) (main (F := F))) ⟨m, fun _ => 0, ρ⟩ (fun r => ∀ c : Dev nD,
      r.2.mem ((c.tc : Thread nD τ).loc main_v60) = (dat2 (U5 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v60 (by decide))).trans (W6_arr m c 3),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

end Cert.Kernel.Hand
end
-- ==== Proof.KI.Region0.lean ====
/-
  Pallas call 0 (the first dense layer) as one pipelined region, at any float instance and at any contents
  `V` of the core's buffers when the region is entered.

  The grid has 8 * 8 * 4 points; point t has coordinates (i, j, k) with k = t mod 4 the block of the
  contracted axis.  At each point the body adds the product of a 1024 x 1024 block of the activations with a
  1024 x 1024 block of the weights into a scratch accumulator it keeps between points; at k = 0 it first
  clears the accumulator, and at k = 3 it adds the bias row, applies the rectifier, narrows and stores the
  output block, which the pipeline then writes back.  At the other points the output's staging buffer is not
  touched.

  This module fixes what the accumulator holds after each point (`accAt0`, by recursion on the point), the
  proof data of the pipeline built on it (`dat0`), the body's Hoare triples in its three control cases, and the
  body obligation at every point.
-/
import proofs.«134509_j20693152432262_1_alg».proof.Proof.Gen.KernelIdeal.Launch
import proofs.«134509_j20693152432262_1_alg».proof.Proof.Gen.KernelIdeal.Skeleton
import proofs.«134509_j20693152432262_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, in closed form over the grid -/

/-- The first conditional of the body: the contracted block index k is 0 (clear the accumulator). -/
abbrev cond0_0 (i : grid0.Coords) : Prop := (Scalar.cmpi .ne (Scalar.extui (Scalar.cmpi .eq (BitVec.ofNat 32 (i 2).val) 0#32)) 0#32) = 1#1
/-- The second conditional: k is the last block (finish and store the output block). -/
abbrev cond0_1 (i : grid0.Coords) : Prop := k0_cond2 i = 1#1

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)

/-- The output window is idle exactly where the last-block condition fails, and is not written back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- The whole-buffer rectangles of the body start at offset zero on both axes. -/
theorem hzA0 : (![0, 0] : Fin S1024x1024.rank → Nat) = fun _ => 0 := by funext a; fin_cases a <;> rfl
theorem hzB0 : (![0, 0] : Fin S1x1024.rank → Nat) = fun _ => 0 := by funext a; fin_cases a <;> rfl

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it was fetched there
    (unfetched, the block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's three control cases -/

/-- The scratch accumulator, a whole scoped buffer of the kernel's own. -/
abbrev scM0 : Memref sig .tc .vmem S1024x1024 .f32 := Memref.whole cc0_scratch0

set_option maxHeartbeats 4000000 in
/-- k = 0 and not the last block: the accumulator, whatever it held, ends at the product block added to zero. -/
theorem body0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.bf16)) (harg6 : arg6.IsWhole) (arg7 : Memref sig .tc .vmem S1024x1024 .f32) (harg7 : arg7.IsWhole)
    (hc0 : cond0_0 i) (hc1 : ¬cond0_1 i)
    (x0 : Vec F S1024x1024 .bf16) (x1 : Vec F S1024x1024 .bf16)
    (E : Set ℕ) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k0_pay2 k0_pay1 x0 x1)) -∗ K ⟨⟩))
      ⊢ wp frame (wpE (defs₀ (F := F)) Variants.none c none) E (cc0__mlp_kernel i arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%ds, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_cons_self, View.mem_set_unit_zero hzA0 inb_S1024x1024_S1024x1024_0_0 y⟩)]
  rw [View.canon_cons_unit_zero hzA0]
  simp only [View.readAt_eq_ld, harg3.read_unread, harg4.read_unread, View.readCov_unit_zero (S := S1024x1024) _ hzA0, View.ld_unit_zero (S := S1024x1024) hzA0]

set_option maxHeartbeats 4000000 in
/-- Neither the first nor the last block: the accumulator gains the product block. -/
theorem body0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.bf16)) (harg6 : arg6.IsWhole) (arg7 : Memref sig .tc .vmem S1024x1024 .f32) (harg7 : arg7.IsWhole)
    (hc0 : ¬cond0_0 i) (hc1 : ¬cond0_1 i)
    (x0 : Vec F S1024x1024 .bf16) (x1 : Vec F S1024x1024 .bf16) (xs0 : Vec F S1024x1024 .f32)
    (E : Set ℕ) (K : PUnit → sProp 𝕄) :
    iprop(owns (c : Thread nD τ) arg3 fullShare x0 ∗ owns (c : Thread nD τ) arg4 fullShare x1 ∗ owns (c : Thread nD τ) arg7 fullShare xs0
        ∗ (iprop(owns (c : Thread nD τ) arg3 fullShare x0 ∗ owns (c : Thread nD τ) arg4 fullShare x1
            ∗ owns (c : Thread nD τ) arg7 fullShare (k0_pay2 xs0 x0 x1)) -∗ K ⟨⟩))
      ⊢ wp frame (wpE (defs₀ (F := F)) Variants.none c none) E (cc0__mlp_kernel i arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_singleton_self _, View.mem_set_unit_zero hzA0 inb_S1024x1024_S1024x1024_0_0 y⟩)]
  rw [View.canon_unit_zero hzA0]
  simp only [View.readAt_eq_ld, harg7.read_unread, harg3.read_unread, harg4.read_unread, View.ld_unit_zero (S := S1024x1024) hzA0]

set_option maxHeartbeats 4000000 in
/-- The last block (and not the first): the accumulator gains the product block, and the output's staging buffer,
    whatever it held, ends at the finished block computed from the accumulator and the bias row. -/
theorem body0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.bf16)) (harg6 : arg6.IsWhole) (arg7 : Memref sig .tc .vmem S1024x1024 .f32) (harg7 : arg7.IsWhole)
    (hc0 : ¬cond0_0 i) (hc1 : cond0_1 i)
    (x0 : Vec F S1024x1024 .bf16) (x1 : Vec F S1024x1024 .bf16) (x2 : Vec F S1x1024 .f32) (xs0 : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 xs0 x0 x1) x2) ∗ owns (c : Thread nD τ) arg7 fullShare (k0_pay2 xs0 x0 x1)) -∗ K ⟨⟩))
      ⊢ wp frame (wpE (defs₀ (F := F)) Variants.none c none) E (cc0__mlp_kernel i arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg3.eq_unread hf0; obtain rfl := harg4.eq_unread hf1; obtain rfl := harg5.eq_unread hf2; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [View.read_writes_eq_canon _ _ _ (fun y => ⟨_, List.mem_singleton_self _, View.mem_set_unit_zero hzA0 inb_S1024x1024_S1024x1024_0_0 y⟩)]
    sl_unfold_words
    rw [View.canon_unit_zero hzA0]
    simp only [View.readAt_eq_ld, harg7.read_unread, harg3.read_unread, harg4.read_unread, harg5.read_unread, View.readCov_unit_zero (S := S1024x1024) _ hzA0, View.ld_unit_zero (S := S1024x1024) hzA0, View.ld_unit_zero (S := S1x1024) hzB0]
  · iexists _; isplitr
    swap; · iexact HS0
    ipureintro
    sl_unfold_words
    rw [View.read_writes_eq_canon _ _ _ (fun y => ⟨_, List.mem_singleton_self _, View.mem_set_unit_zero hzA0 inb_S1024x1024_S1024x1024_0_0 y⟩)]
    rw [View.canon_unit_zero hzA0]
    simp only [View.readAt_eq_ld, harg7.read_unread, harg3.read_unread, harg4.read_unread, View.ld_unit_zero (S := S1024x1024) hzA0]

/-! ## What the accumulator holds after each point -/

/-- The accumulator after the body at position `n`: at a point with k = 0 the product of the point's two blocks
    added to zero, at any other point the product added to what the point before left. -/
def accAt0 (c : Dev nD) : (n : ℕ) → n < cfg0.N → Vec F S1024x1024 .f32
  | 0, hn => k0_pay2 k0_pay1 (iblk0 V c 0 ⟨0, hn⟩) (iblk0 V c 1 ⟨0, hn⟩)
  | n + 1, hn =>
    if (n + 1) % 4 = 0 then k0_pay2 k0_pay1 (iblk0 V c 0 ⟨n + 1, hn⟩) (iblk0 V c 1 ⟨n + 1, hn⟩)
    else k0_pay2 (accAt0 c n (Nat.lt_of_succ_lt hn)) (iblk0 V c 0 ⟨n + 1, hn⟩) (iblk0 V c 1 ⟨n + 1, hn⟩)

/-- At a point with k = 0 the accumulator restarts. -/
theorem accAt0_reset (c : Dev nD) (t : Fin cfg0.N) (h0 : t.val % 4 = 0) :
    accAt0 V c t.val t.isLt = k0_pay2 k0_pay1 (iblk0 V c 0 t) (iblk0 V c 1 t) := by
  obtain ⟨n, hn⟩ := t
  cases n with
  | zero => rfl
  | succ n => exact (if_pos h0)

/-- At any other point it continues from the point before. -/
theorem accAt0_step (c : Dev nD) (t : Fin cfg0.N) (h0 : ¬t.val % 4 = 0) :
    accAt0 V c t.val t.isLt = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact (if_neg h0)

/-! ## The region invariant -/

/-- The core's scoped buffers other than this call's staging buffers and its accumulator, at some contents each:
    carried through the region unopened. -/
abbrev rest0 (c : Dev nD) : sProp 𝕄 :=
  Pipeline.scopedRestBut (Ix := Unit) (Name := ℕ) (U := UR sig nD τ) (Lvl := ℕ) (Val := Elt F) spec0 c [cc0_scratch0]

/-- What the launch hands the region, with the accumulator split out as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [Idealize.SL.BI.bigSepL_singleton, scM0, owns_whole]; try rfl

/-- The invariant before position `n`: before the first point what the launch hands over; afterwards the accumulator
    at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ rest0 c) ∗ (∃ r, prngReg c r)) := by
  cases n with
  | zero => exact absurd rfl hz
  | succ n => rfl

/-! ## The pipeline's proof data -/

/-- The proof data of pipeline 0 on core `c`: the arrays as the region finds them; after the body each input's
    buffer at its block and the output's at the finished block computed from the accumulator and the bias block (the
    value is consulted only at the points with k = 3, where the body stores it); the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (accAt0 V c t.val t.isLt) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The closed forms say which control case the point is in; the inputs' staging buffers
    hold their blocks; the invariant hands over the accumulator at what the point before left (anything at the first
    point) and takes it back at this point's contents; at the points with k < 3 the output's staging buffer is handed
    back as found, at k = 3 it ends at the finished block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from rfl, after0_0]
  rw [show (dat0 V c).leavesExact 1 t = owns (c : Thread nD τ) (st0_1 t) fullShare ((dat0 V c).after 1 t) from rfl, after0_1]
  rw [show (dat0 V c).leavesExact 2 t = owns (c : Thread nD τ) (st0_2 t) fullShare ((dat0 V c).after 2 t) from rfl, after0_2]
  have hN : t.val < 256 := lt_of_lt_of_eq t.isLt (show cfg0.N = 256 from N_0)
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [accAt0_reset V c t h0]
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply (body0_A c (grid0.coords t) _ _ _ _ _ _ _ _ _ _ hc0 hc1 (iblk0 V c 0 t) (iblk0 V c 1 t) Set.univ _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply (body0_A c (grid0.coords t) _ _ _ _ _ _ _ _ _ _ hc0 hc1 (iblk0 V c 0 t) (iblk0 V c 1 t) Set.univ _)
      isplitl [H0]; · iexact H0
      isplitl [H1]; · iexact H1
      isplitl [HS0]; · iexists _; iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond0_0 (grid0.coords t) := fun h => h0 ((hcond0_0 t).mp h)
    by_cases h1 : t.val % 4 = 3
    · have hc1 : cond0_1 (grid0.coords t) := (hcond0_1 t).mpr h1
      rw [show (dat0 V c).leavesExact 3 t = owns (c : Thread nD τ) (st0_3 t) fullShare ((dat0 V c).after 3 t) from by
        unfold Dat.leavesExact; rw [liveAt0_3 t hc1], after0_3]
      rw [accAt0_step V c t h0]
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply (body0_C c (grid0.coords t) _ _ _ _ _ _ _ _ _ _ hc0 hc1 (iblk0 V c 0 t) (iblk0 V c 1 t) (iblk0 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 3 t (idleAt0_3 t hc1) (noFlush0_3 t hc1)]
      rw [accAt0_step V c t h0]
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply (body0_B c (grid0.coords t) _ _ _ _ _ _ _ _ _ _ hc0 hc1 (iblk0 V c 0 t) (iblk0 V c 1 t) _ Set.univ _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the launch's form back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega), PhiA0_eq]
  iintro ⟨⟨HS0, HR⟩, Hg⟩
  isplitl [HS0 HR]
  · isplitl [HS0]; · iexists _; iexact HS0
    iexact HR
  iexact Hg

end Cert.KernelIdeal.Hand
end
-- ==== Proof.KI.Region1.lean ====
/-
  Pallas call 1 (the second dense layer) as one pipelined region, at any float instance and at any contents
  `V` of the core's buffers when the region is entered.

  The grid has 8 * 8 * 8 points; point t has coordinates (i, j, k) with k = t mod 8 the block of the
  contracted axis.  At each point the body adds the product of a 1024 x 1024 block of the activations with a
  1024 x 1024 block of the weights into a scratch accumulator it keeps between points; at k = 0 it first
  clears the accumulator, and at k = 7 it adds the bias row, applies the rectifier, narrows and stores the
  output block, which the pipeline then writes back.  At the other points the output's staging buffer is not
  touched.

  This module fixes what the accumulator holds after each point (`accAt1`, by recursion on the point), the
  proof data of the pipeline built on it (`dat1`), the body's Hoare triples in its three control cases, and the
  body obligation at every point.
-/
import proofs.«134509_j20693152432262_1_alg».proof.Proof.Gen.KernelIdeal.Launch
import proofs.«134509_j20693152432262_1_alg».proof.Proof.Gen.KernelIdeal.Skeleton
import proofs.«134509_j20693152432262_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, in closed form over the grid -/

/-- The first conditional of the body: the contracted block index k is 0 (clear the accumulator). -/
abbrev cond1_0 (i : grid1.Coords) : Prop := (Scalar.cmpi .ne (Scalar.extui (Scalar.cmpi .eq (BitVec.ofNat 32 (i 2).val) 0#32)) 0#32) = 1#1
/-- The second conditional: k is the last block (finish and store the output block). -/
abbrev cond1_1 (i : grid1.Coords) : Prop := k1_cond2 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

/-- The output window is idle exactly where the last-block condition fails, and is not written back there. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The whole-buffer rectangles of the body start at offset zero on both axes. -/
theorem hzA1 : (![0, 0] : Fin S1024x1024.rank → Nat) = fun _ => 0 := by funext a; fin_cases a <;> rfl
theorem hzB1 : (![0, 0] : Fin S1x1024.rank → Nat) = fun _ => 0 := by funext a; fin_cases a <;> rfl

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it was fetched there
    (unfetched, the block index has not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's three control cases -/

/-- The scratch accumulator, a whole scoped buffer of the kernel's own. -/
abbrev scM1 : Memref sig .tc .vmem S1024x1024 .f32 := Memref.whole cc1_scratch0

set_option maxHeartbeats 4000000 in
/-- k = 0 and not the last block: the accumulator, whatever it held, ends at the product block added to zero. -/
theorem body1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.bf16)) (harg6 : arg6.IsWhole) (arg7 : Memref sig .tc .vmem S1024x1024 .f32) (harg7 : arg7.IsWhole)
    (hc0 : cond1_0 i) (hc1 : ¬cond1_1 i)
    (x0 : Vec F S1024x1024 .bf16) (x1 : Vec F S1024x1024 .bf16)
    (E : Set ℕ) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k1_pay2 k1_pay1 x0 x1)) -∗ K ⟨⟩))
      ⊢ wp frame (wpE (defs₀ (F := F)) Variants.none c none) E (cc1__mlp_kernel i arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%ds, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_cons_self, View.mem_set_unit_zero hzA1 inb_S1024x1024_S1024x1024_0_0 y⟩)]
  rw [View.canon_cons_unit_zero hzA1]
  simp only [View.readAt_eq_ld, harg3.read_unread, harg4.read_unread, View.readCov_unit_zero (S := S1024x1024) _ hzA1, View.ld_unit_zero (S := S1024x1024) hzA1]

set_option maxHeartbeats 4000000 in
/-- Neither the first nor the last block: the accumulator gains the product block. -/
theorem body1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.bf16)) (harg6 : arg6.IsWhole) (arg7 : Memref sig .tc .vmem S1024x1024 .f32) (harg7 : arg7.IsWhole)
    (hc0 : ¬cond1_0 i) (hc1 : ¬cond1_1 i)
    (x0 : Vec F S1024x1024 .bf16) (x1 : Vec F S1024x1024 .bf16) (xs0 : Vec F S1024x1024 .f32)
    (E : Set ℕ) (K : PUnit → sProp 𝕄) :
    iprop(owns (c : Thread nD τ) arg3 fullShare x0 ∗ owns (c : Thread nD τ) arg4 fullShare x1 ∗ owns (c : Thread nD τ) arg7 fullShare xs0
        ∗ (iprop(owns (c : Thread nD τ) arg3 fullShare x0 ∗ owns (c : Thread nD τ) arg4 fullShare x1
            ∗ owns (c : Thread nD τ) arg7 fullShare (k1_pay2 xs0 x0 x1)) -∗ K ⟨⟩))
      ⊢ wp frame (wpE (defs₀ (F := F)) Variants.none c none) E (cc1__mlp_kernel i arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_singleton_self _, View.mem_set_unit_zero hzA1 inb_S1024x1024_S1024x1024_0_0 y⟩)]
  rw [View.canon_unit_zero hzA1]
  simp only [View.readAt_eq_ld, harg7.read_unread, harg3.read_unread, harg4.read_unread, View.ld_unit_zero (S := S1024x1024) hzA1]

set_option maxHeartbeats 4000000 in
/-- The last block (and not the first): the accumulator gains the product block, and the output's staging buffer,
    whatever it held, ends at the finished block computed from the accumulator and the bias row. -/
theorem body1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.bf16)) (harg6 : arg6.IsWhole) (arg7 : Memref sig .tc .vmem S1024x1024 .f32) (harg7 : arg7.IsWhole)
    (hc0 : ¬cond1_0 i) (hc1 : cond1_1 i)
    (x0 : Vec F S1024x1024 .bf16) (x1 : Vec F S1024x1024 .bf16) (x2 : Vec F S1x1024 .f32) (xs0 : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 xs0 x0 x1) x2) ∗ owns (c : Thread nD τ) arg7 fullShare (k1_pay2 xs0 x0 x1)) -∗ K ⟨⟩))
      ⊢ wp frame (wpE (defs₀ (F := F)) Variants.none c none) E (cc1__mlp_kernel i arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg3.eq_unread hf0; obtain rfl := harg4.eq_unread hf1; obtain rfl := harg5.eq_unread hf2; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [View.read_writes_eq_canon _ _ _ (fun y => ⟨_, List.mem_singleton_self _, View.mem_set_unit_zero hzA1 inb_S1024x1024_S1024x1024_0_0 y⟩)]
    sl_unfold_words
    rw [View.canon_unit_zero hzA1]
    simp only [View.readAt_eq_ld, harg7.read_unread, harg3.read_unread, harg4.read_unread, harg5.read_unread, View.readCov_unit_zero (S := S1024x1024) _ hzA1, View.ld_unit_zero (S := S1024x1024) hzA1, View.ld_unit_zero (S := S1x1024) hzB1]
  · iexists _; isplitr
    swap; · iexact HS0
    ipureintro
    sl_unfold_words
    rw [View.read_writes_eq_canon _ _ _ (fun y => ⟨_, List.mem_singleton_self _, View.mem_set_unit_zero hzA1 inb_S1024x1024_S1024x1024_0_0 y⟩)]
    rw [View.canon_unit_zero hzA1]
    simp only [View.readAt_eq_ld, harg7.read_unread, harg3.read_unread, harg4.read_unread, View.ld_unit_zero (S := S1024x1024) hzA1]

/-! ## What the accumulator holds after each point -/

/-- The accumulator after the body at position `n`: at a point with k = 0 the product of the point's two blocks
    added to zero, at any other point the product added to what the point before left. -/
def accAt1 (c : Dev nD) : (n : ℕ) → n < cfg1.N → Vec F S1024x1024 .f32
  | 0, hn => k1_pay2 k1_pay1 (iblk1 V c 0 ⟨0, hn⟩) (iblk1 V c 1 ⟨0, hn⟩)
  | n + 1, hn =>
    if (n + 1) % 8 = 0 then k1_pay2 k1_pay1 (iblk1 V c 0 ⟨n + 1, hn⟩) (iblk1 V c 1 ⟨n + 1, hn⟩)
    else k1_pay2 (accAt1 c n (Nat.lt_of_succ_lt hn)) (iblk1 V c 0 ⟨n + 1, hn⟩) (iblk1 V c 1 ⟨n + 1, hn⟩)

/-- At a point with k = 0 the accumulator restarts. -/
theorem accAt1_reset (c : Dev nD) (t : Fin cfg1.N) (h0 : t.val % 8 = 0) :
    accAt1 V c t.val t.isLt = k1_pay2 k1_pay1 (iblk1 V c 0 t) (iblk1 V c 1 t) := by
  obtain ⟨n, hn⟩ := t
  cases n with
  | zero => rfl
  | succ n => exact (if_pos h0)

/-- At any other point it continues from the point before. -/
theorem accAt1_step (c : Dev nD) (t : Fin cfg1.N) (h0 : ¬t.val % 8 = 0) :
    accAt1 V c t.val t.isLt = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact (if_neg h0)

/-! ## The region invariant -/

/-- The core's scoped buffers other than this call's staging buffers and its accumulator, at some contents each:
    carried through the region unopened. -/
abbrev rest1 (c : Dev nD) : sProp 𝕄 :=
  Pipeline.scopedRestBut (Ix := Unit) (Name := ℕ) (U := UR sig nD τ) (Lvl := ℕ) (Val := Elt F) spec1 c [cc1_scratch0]

/-- What the launch hands the region, with the accumulator split out as a memref owned at some contents. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [Idealize.SL.BI.bigSepL_singleton, scM1, owns_whole]; try rfl

/-- The invariant before position `n`: before the first point what the launch hands over; afterwards the accumulator
    at what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega)) ∗ rest1 c) ∗ (∃ r, prngReg c r)) := by
  cases n with
  | zero => exact absurd rfl hz
  | succ n => rfl

/-! ## The pipeline's proof data -/

/-- The proof data of pipeline 1 on core `c`: the arrays as the region finds them; after the body each input's
    buffer at its block and the output's at the finished block computed from the accumulator and the bias block (the
    value is consulted only at the points with k = 7, where the body stores it); the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (accAt1 V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The closed forms say which control case the point is in; the inputs' staging buffers
    hold their blocks; the invariant hands over the accumulator at what the point before left (anything at the first
    point) and takes it back at this point's contents; at the points with k < 7 the output's staging buffer is handed
    back as found, at k = 7 it ends at the finished block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  have hN : t.val < 512 := lt_of_lt_of_eq t.isLt (show cfg1.N = 512 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [accAt1_reset V c t h0]
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩⟩
      iapply (body1_A c (grid1.coords t) _ _ _ _ _ _ _ _ _ _ hc0 hc1 (iblk1 V c 0 t) (iblk1 V c 1 t) Set.univ _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply (body1_A c (grid1.coords t) _ _ _ _ _ _ _ _ _ _ hc0 hc1 (iblk1 V c 0 t) (iblk1 V c 1 t) Set.univ _)
      isplitl [H0]; · iexact H0
      isplitl [H1]; · iexact H1
      isplitl [HS0]; · iexists _; iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3]
      rw [accAt1_step V c t h0]
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply (body1_C c (grid1.coords t) _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      rw [accAt1_step V c t h0]
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply (body1_B c (grid1.coords t) _ _ _ _ _ _ _ _ _ _ hc0 hc1 (iblk1 V c 0 t) (iblk1 V c 1 t) _ Set.univ _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the launch's form back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 512 := N_1; omega), PhiA1_eq]
  iintro ⟨⟨HS0, HR⟩, Hg⟩
  isplitl [HS0 HR]
  · isplitl [HS0]; · iexists _; iexact HS0
    iexact HR
  iexact Hg

end Cert.KernelIdeal.Hand
end
-- ==== Proof.KI.Region2.lean ====
/-
  Pallas call 2 (the third dense layer) as one pipelined region, at any float instance and at any contents
  `V` of the core's buffers when the region is entered.

  The grid has 8 * 4 * 8 points; point t has coordinates (i, j, k) with k = t mod 8 the block of the
  contracted axis.  At each point the body adds the product of a 1024 x 1024 block of the activations with a
  1024 x 1024 block of the weights into a scratch accumulator it keeps between points; at k = 0 it first
  clears the accumulator, and at k = 7 it adds the bias row, applies the rectifier, narrows and stores the
  output block, which the pipeline then writes back.  At the other points the output's staging buffer is not
  touched.

  This module fixes what the accumulator holds after each point (`accAt2`, by recursion on the point), the
  proof data of the pipeline built on it (`dat2`), the body's Hoare triples in its three control cases, and the
  body obligation at every point.
-/
import proofs.«134509_j20693152432262_1_alg».proof.Proof.Gen.KernelIdeal.Launch
import proofs.«134509_j20693152432262_1_alg».proof.Proof.Gen.KernelIdeal.Skeleton
import proofs.«134509_j20693152432262_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, in closed form over the grid -/

/-- The first conditional of the body: the contracted block index k is 0 (clear the accumulator). -/
abbrev cond2_0 (i : grid2.Coords) : Prop := (Scalar.cmpi .ne (Scalar.extui (Scalar.cmpi .eq (BitVec.ofNat 32 (i 2).val) 0#32)) 0#32) = 1#1
/-- The second conditional: k is the last block (finish and store the output block). -/
abbrev cond2_1 (i : grid2.Coords) : Prop := k2_cond2 i = 1#1

theorem hcond2_0 : ∀ t : Fin cfg2.N, cond2_0 (grid2.coords t) ↔ t.val % 8 = 0 :=
  (by decide +kernel : ∀ t : Fin grid2.N, cond2_0 (grid2.coords t) ↔ t.val % 8 = 0)
theorem hcond2_1 : ∀ t : Fin cfg2.N, cond2_1 (grid2.coords t) ↔ t.val % 8 = 7 :=
  (by decide +kernel : ∀ t : Fin grid2.N, cond2_1 (grid2.coords t) ↔ t.val % 8 = 7)

/-- The output window is idle exactly where the last-block condition fails, and is not written back there. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-- The whole-buffer rectangles of the body start at offset zero on both axes. -/
theorem hzA2 : (![0, 0] : Fin S1024x1024.rank → Nat) = fun _ => 0 := by funext a; fin_cases a <;> rfl
theorem hzB2 : (![0, 0] : Fin S1x1024.rank → Nat) = fun _ => 0 := by funext a; fin_cases a <;> rfl

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether or not it was fetched there
    (unfetched, the block index has not moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's three control cases -/

/-- The scratch accumulator, a whole scoped buffer of the kernel's own. -/
abbrev scM2 : Memref sig .tc .vmem S1024x1024 .f32 := Memref.whole cc2_scratch0

set_option maxHeartbeats 4000000 in
/-- k = 0 and not the last block: the accumulator, whatever it held, ends at the product block added to zero. -/
theorem body2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.f32)) (harg6 : arg6.IsWhole) (arg7 : Memref sig .tc .vmem S1024x1024 .f32) (harg7 : arg7.IsWhole)
    (hc0 : cond2_0 i) (hc1 : ¬cond2_1 i)
    (x0 : Vec F S1024x1024 .bf16) (x1 : Vec F S1024x1024 .bf16)
    (E : Set ℕ) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k2_pay2 k2_pay1 x0 x1)) -∗ K ⟨⟩))
      ⊢ wp frame (wpE (defs₀ (F := F)) Variants.none c none) E (cc2__mlp_kernel i arg3 harg3 arg4 harg4 arg5 harg5 arg6 harg6 arg7 harg7) K := by
  simp only [cc2__mlp_kernel_eq_skeleton]; unfold cc2__mlp_kernel_skel
  unfold owns
  iintro ⟨⟨%f0, %hf0, H0⟩, ⟨%f1, %hf1, H1⟩, ⟨%ds, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_cons_self, View.mem_set_unit_zero hzA2 inb_S1024x1024_S1024x1024_0_0 y⟩)]
  rw [View.canon_cons_unit_zero hzA2]
  simp only [View.readAt_eq_ld, harg3.read_unread, harg4.read_unread, View.readCov_unit_zero (S := S1024x1024) _ hzA2, View.ld_unit_zero (S := S1024x1024) hzA2]

set_option maxHeartbeats 4000000 in
/-- Neither the first nor the last block: the accumulator gains the product block. -/
theorem body2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.f32)) (harg6 : arg6.IsWhole) (arg7 : Memref sig .tc .vmem S1024x1024 .f32) (harg7 : arg7.IsWhole)
    (hc0 : ¬cond2_0 i) (hc1 : ¬cond2_1 i)
    (x0 : Vec F S1024x1024 .bf16) (x1 : Vec F S1024x1024 .bf16) (xs0 : Vec F S1024x1024 .f32)
    (E : Set ℕ) (K : PUnit → sProp 𝕄) :
    iprop(owns (c : Thread nD τ) arg3 fullShare x0 ∗ owns (c : Thread nD τ) arg4 fullShare x1 ∗ owns (c : Thread nD τ) arg7 fullShare xs0
        ∗ (iprop(owns (c : Thread nD τ) arg3 fullShare x0 ∗ owns (c : Thread nD τ) arg4 fullShare x1
            ∗ owns (c : Thread nD τ) arg7 fullShare (k2_pay2 xs0 x0 x1)) -∗ K ⟨⟩))
      ⊢ wp frame (wpE (defs₀ (F := F)) Variants.none c none) E (cc2__mlp_kernel i arg3 harg3 arg4 harg4 arg5 harg5 arg6 harg6 arg7 harg7) K := by
  simp only [cc2__mlp_kernel_eq_skeleton]; unfold cc2__mlp_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_singleton_self _, View.mem_set_unit_zero hzA2 inb_S1024x1024_S1024x1024_0_0 y⟩)]
  rw [View.canon_unit_zero hzA2]
  simp only [View.readAt_eq_ld, harg7.read_unread, harg3.read_unread, harg4.read_unread, View.ld_unit_zero (S := S1024x1024) hzA2]

set_option maxHeartbeats 4000000 in
/-- The last block (and not the first): the accumulator gains the product block, and the output's staging buffer,
    whatever it held, ends at the finished block computed from the accumulator and the bias row. -/
theorem body2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 (EltTy.f32)) (harg6 : arg6.IsWhole) (arg7 : Memref sig .tc .vmem S1024x1024 .f32) (harg7 : arg7.IsWhole)
    (hc0 : ¬cond2_0 i) (hc1 : cond2_1 i)
    (x0 : Vec F S1024x1024 .bf16) (x1 : Vec F S1024x1024 .bf16) (x2 : Vec F S1x1024 .f32) (xs0 : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
        ∗ (iprop(owns (c : Thread nD τ) arg3 fullShare x0 ∗ owns (c : Thread nD τ) arg4 fullShare x1 ∗ owns (c : Thread nD τ) arg5 fullShare x2
            ∗ owns (c : Thread nD τ) arg6 fullShare (k2_pay3 (k2_pay2 xs0 x0 x1) x2) ∗ owns (c : Thread nD τ) arg7 fullShare (k2_pay2 xs0 x0 x1)) -∗ K ⟨⟩))
      ⊢ wp frame (wpE (defs₀ (F := F)) Variants.none c none) E (cc2__mlp_kernel i arg3 harg3 arg4 harg4 arg5 harg5 arg6 harg6 arg7 harg7) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg3.eq_unread hf0; obtain rfl := harg4.eq_unread hf1; obtain rfl := harg5.eq_unread hf2; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [View.read_writes_eq_canon _ _ _ (fun y => ⟨_, List.mem_singleton_self _, View.mem_set_unit_zero hzA2 inb_S1024x1024_S1024x1024_0_0 y⟩)]
    sl_unfold_words
    rw [View.canon_unit_zero hzA2]
    simp only [View.readAt_eq_ld, harg7.read_unread, harg3.read_unread, harg4.read_unread, harg5.read_unread, View.readCov_unit_zero (S := S1024x1024) _ hzA2, View.ld_unit_zero (S := S1024x1024) hzA2, View.ld_unit_zero (S := S1x1024) hzB2]
  · iexists _; isplitr
    swap; · iexact HS0
    ipureintro
    sl_unfold_words
    rw [View.read_writes_eq_canon _ _ _ (fun y => ⟨_, List.mem_singleton_self _, View.mem_set_unit_zero hzA2 inb_S1024x1024_S1024x1024_0_0 y⟩)]
    rw [View.canon_unit_zero hzA2]
    simp only [View.readAt_eq_ld, harg7.read_unread, harg3.read_unread, harg4.read_unread, View.ld_unit_zero (S := S1024x1024) hzA2]

/-! ## What the accumulator holds after each point -/

/-- The accumulator after the body at position `n`: at a point with k = 0 the product of the point's two blocks
    added to zero, at any other point the product added to what the point before left. -/
def accAt2 (c : Dev nD) : (n : ℕ) → n < cfg2.N → Vec F S1024x1024 .f32
  | 0, hn => k2_pay2 k2_pay1 (iblk2 V c 0 ⟨0, hn⟩) (iblk2 V c 1 ⟨0, hn⟩)
  | n + 1, hn =>
    if (n + 1) % 8 = 0 then k2_pay2 k2_pay1 (iblk2 V c 0 ⟨n + 1, hn⟩) (iblk2 V c 1 ⟨n + 1, hn⟩)
    else k2_pay2 (accAt2 c n (Nat.lt_of_succ_lt hn)) (iblk2 V c 0 ⟨n + 1, hn⟩) (iblk2 V c 1 ⟨n + 1, hn⟩)

/-- At a point with k = 0 the accumulator restarts. -/
theorem accAt2_reset (c : Dev nD) (t : Fin cfg2.N) (h0 : t.val % 8 = 0) :
    accAt2 V c t.val t.isLt = k2_pay2 k2_pay1 (iblk2 V c 0 t) (iblk2 V c 1 t) := by
  obtain ⟨n, hn⟩ := t
  cases n with
  | zero => rfl
  | succ n => exact (if_pos h0)

/-- At any other point it continues from the point before. -/
theorem accAt2_step (c : Dev nD) (t : Fin cfg2.N) (h0 : ¬t.val % 8 = 0) :
    accAt2 V c t.val t.isLt = k2_pay2 (accAt2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact (if_neg h0)

/-! ## The region invariant -/

/-- The core's scoped buffers other than this call's staging buffers and its accumulator, at some contents each:
    carried through the region unopened. -/
abbrev rest2 (c : Dev nD) : sProp 𝕄 :=
  Pipeline.scopedRestBut (Ix := Unit) (Name := ℕ) (U := UR sig nD τ) (Lvl := ℕ) (Val := Elt F) spec2 c [cc2_scratch0]

/-- What the launch hands the region, with the accumulator split out as a memref owned at some contents. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA
  rw [Pipeline.scopedRest_split_of_list spec2 c [cc2_scratch0] (by decide) (by decide)]
  simp only [Idealize.SL.BI.bigSepL_singleton, scM2, owns_whole]; try rfl

/-- The invariant before position `n`: before the first point what the launch hands over; afterwards the accumulator
    at what the point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (accAt2 V c n hn) ∗ rest2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare (accAt2 V c (n - 1) (by omega)) ∗ rest2 c) ∗ (∃ r, prngReg c r)) := by
  cases n with
  | zero => exact absurd rfl hz
  | succ n => rfl

/-! ## The pipeline's proof data -/

/-- The proof data of pipeline 2 on core `c`: the arrays as the region finds them; after the body each input's
    buffer at its block and the output's at the finished block computed from the accumulator and the bias block (the
    value is consulted only at the points with k = 7, where the body stores it); the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (accAt2 V c t.val t.isLt) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The closed forms say which control case the point is in; the inputs' staging buffers
    hold their blocks; the invariant hands over the accumulator at what the point before left (anything at the first
    point) and takes it back at this point's contents; at the points with k < 7 the output's staging buffer is handed
    back as found, at k = 7 it ends at the finished block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  rw [show (dat2 V c).leavesExact 2 t = owns (c : Thread nD τ) (st2_2 t) fullShare ((dat2 V c).after 2 t) from rfl, after2_2]
  have hN : t.val < 256 := lt_of_lt_of_eq t.isLt (show cfg2.N = 256 from N_2)
  by_cases h0 : t.val % 8 = 0
  · have h1 : ¬t.val % 8 = 7 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1)]
    rw [accAt2_reset V c t h0]
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩⟩
      iapply (body2_A c (grid2.coords t) _ _ _ _ _ _ _ _ _ _ hc0 hc1 (iblk2 V c 0 t) (iblk2 V c 1 t) Set.univ _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply (body2_A c (grid2.coords t) _ _ _ _ _ _ _ _ _ _ hc0 hc1 (iblk2 V c 0 t) (iblk2 V c 1 t) Set.univ _)
      isplitl [H0]; · iexact H0
      isplitl [H1]; · iexact H1
      isplitl [HS0]; · iexists _; iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond2_0 (grid2.coords t) := fun h => h0 ((hcond2_0 t).mp h)
    by_cases h1 : t.val % 8 = 7
    · have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3]
      rw [accAt2_step V c t h0]
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply (body2_C c (grid2.coords t) _ _ _ _ _ _ _ _ _ _ hc0 hc1 (iblk2 V c 0 t) (iblk2 V c 1 t) (iblk2 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1)]
      rw [accAt2_step V c t h0]
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply (body2_B c (grid2.coords t) _ _ _ _ _ _ _ _ _ _ hc0 hc1 (iblk2 V c 0 t) (iblk2 V c 1 t) _ Set.univ _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives the launch's form back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 256 := N_2; omega), PhiA2_eq]
  iintro ⟨⟨HS0, HR⟩, Hg⟩
  isplitl [HS0 HR]
  · isplitl [HS0]; · iexists _; iexact HS0
    iexact HR
  iexact Hg

end Cert.KernelIdeal.Hand
end
-- ==== Proof.KI.Run.lean ====
/-
  The whole program as a run: three stretches of host operations, each followed by one pipelined region.
  Between two items the core holds every unscoped buffer at contents this module names by a fold from the
  launch memory: a host stretch applies its operations, a region overwrites its four arrays with what its
  pipeline leaves (the three inputs as entered, the output with every written-back block).  From the run come
  the frame (no item writes an argument array, so each ends holding its launch contents) and, for the value
  claim, the contents of every unscoped buffer at the end; the result array is the last region's output array.
-/
import proofs.«134509_j20693152432262_1_alg».proof.Proof.KI.Region0
import proofs.«134509_j20693152432262_1_alg».proof.Proof.KI.Region1
import proofs.«134509_j20693152432262_1_alg».proof.Proof.KI.Region2
import proofs.«134509_j20693152432262_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At region 0's exit: its arrays at what its pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- At region 2's exit: the end of the program. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-- A buffer that no host stretch writes and that is no region's array ends holding its launch contents. -/
theorem W6_untouched (c : Dev nD) (r : Ref sig .tc) (h0 : r ∉ hostOps0_W) (h1 : r ∉ hostOps1_W) (h2 : r ∉ hostOps2_W)
    (n0 : ∀ w, Pipeline.arrRef spec0 w ≠ r) (n1 : ∀ w, Pipeline.arrRef spec1 w ≠ r) (n2 : ∀ w, Pipeline.arrRef spec2 w ≠ r) :
    W6 m c (Proc.devRef .tc r) = m ((c : Thread nD τ).loc r) :=
  calc W6 m c (Proc.devRef .tc r)
    _ = W5 m c (Proc.devRef .tc r) := W6_of_ne m c r n2
    _ = W4 m c (Proc.devRef .tc r) := StableHlo.after_of_writes_sub hostOps2 _ hostOps2_writes h2
    _ = W3 m c (Proc.devRef .tc r) := W4_of_ne m c r n1
    _ = W2 m c (Proc.devRef .tc r) := StableHlo.after_of_writes_sub hostOps1 _ hostOps1_writes h1
    _ = W1 m c (Proc.devRef .tc r) := W2_of_ne m c r n0
    _ = W0 m c (Proc.devRef .tc r) := StableHlo.after_of_writes_sub hostOps0 _ hostOps0_writes h0
    _ = m ((c : Thread nD τ).loc r) := rfl

theorem W6_main_arg0 (c : Dev nD) : W6 m c (Proc.devRef .tc main_arg0) = m ((c : Thread nD τ).loc main_arg0) :=
  W6_untouched m c main_arg0 (by decide) (by decide) (by decide) (by decide) (by decide) (by decide)
theorem W6_main_arg1 (c : Dev nD) : W6 m c (Proc.devRef .tc main_arg1) = m ((c : Thread nD τ).loc main_arg1) :=
  W6_untouched m c main_arg1 (by decide) (by decide) (by decide) (by decide) (by decide) (by decide)
theorem W6_main_arg2 (c : Dev nD) : W6 m c (Proc.devRef .tc main_arg2) = m ((c : Thread nD τ).loc main_arg2) :=
  W6_untouched m c main_arg2 (by decide) (by decide) (by decide) (by decide) (by decide) (by decide)
theorem W6_main_arg3 (c : Dev nD) : W6 m c (Proc.devRef .tc main_arg3) = m ((c : Thread nD τ).loc main_arg3) :=
  W6_untouched m c main_arg3 (by decide) (by decide) (by decide) (by decide) (by decide) (by decide)
theorem W6_main_arg4 (c : Dev nD) : W6 m c (Proc.devRef .tc main_arg4) = m ((c : Thread nD τ).loc main_arg4) :=
  W6_untouched m c main_arg4 (by decide) (by decide) (by decide) (by decide) (by decide) (by decide)
theorem W6_main_arg5 (c : Dev nD) : W6 m c (Proc.devRef .tc main_arg5) = m ((c : Thread nD τ).loc main_arg5) :=
  W6_untouched m c main_arg5 (by decide) (by decide) (by decide) (by decide) (by decide) (by decide)
theorem W6_main_arg6 (c : Dev nD) : W6 m c (Proc.devRef .tc main_arg6) = m ((c : Thread nD τ).loc main_arg6) :=
  W6_untouched m c main_arg6 (by decide) (by decide) (by decide) (by decide) (by decide) (by decide)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at `W1`, left at `W2`. Its arrays are
    split out of the unscoped buffers and put back at their exit contents; the generator register and the scoped
    rest go into the region invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) ⊢ (Pipeline.ΦA spec0 c : sProp 𝕄) := by
      unfold Pipeline.ΦA
      iintro ⟨Hp, -, Hr⟩
      isplitl [Hr]; · iexact Hr
      iexact Hp
    exact h.trans (hin0 (U1 m) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (U1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at their exit contents; the generator register and the scoped
    rest go into the region invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) ⊢ (Pipeline.ΦA spec1 c : sProp 𝕄) := by
      unfold Pipeline.ΦA
      iintro ⟨Hp, -, Hr⟩
      isplitl [Hr]; · iexact Hr
      iexact Hp
    exact h.trans (hin1 (U3 m) c)
  hout c := by
    rw [Pipeline.ownSems0_none]
    have h : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (U3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at their exit contents; the generator register and the scoped
    rest go into the region invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm (F := F) 2).1
        ∗ Pipeline.scopedRest (Ix := Unit) (Name := ℕ) (U := UR sig nD τ) (Lvl := ℕ) (Val := Elt F) spec2 c) ⊢ (Pipeline.ΦA spec2 c : sProp 𝕄) := by
      unfold Pipeline.ΦA
      iintro ⟨Hp, -, Hr⟩
      isplitl [Hr]; · iexact Hr
      iexact Hp
    exact h.trans (hin2 (U5 m) c)
  hout c := by
    rw [Pipeline.ownSems0_none]
    have h : (Pipeline.ΦA spec2 c : sProp 𝕄) ⊢ iprop((∃ r, prngReg c r) ∗ BI.emp
        ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (U5 m) c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

set_option backward.isDefEq.respectTransparency.types false in
/-- THE RUN. From any memory with zero counters every weakly fair execution of the program terminates, nothing
    faulting, and in every final state each unscoped buffer of each core holds what the fold `W6` names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

/-- The run with the result array named: it is the last region's output array after the region, and the arguments
    are unchanged. -/
theorem run_result : θ_run defs (onTc (τ := τ) (main (F := F))) ⟨m, fun _ => 0, ρ⟩ (fun r => ∀ c : Dev nD,
      r.2.mem ((c.tc : Thread nD τ).loc main_v60) = (dat2 (U5 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v60 (by decide))).trans (W6_arr m c 3),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

end Cert.KernelIdeal.Hand
end
-- ==== Proof.Spec.lean ====
/-
  The mathematics both programs compute, stated over plain arrays of extended reals and free of either
  program's text. One dense layer of the network sends an activation matrix X (M rows, K columns), a weight
  matrix W already transposed to K rows and N columns, and a bias row B (one row, N columns) to the M-by-N
  matrix whose (i, j) entry is the inner product of row i of X with column j of W, plus B at column j.
  The first two layers are followed by the rectifier, the entrywise maximum with the float zero; the last
  layer is not.  The float zero is kept as its bit pattern: both programs spell it with the same word.
-/
import Idealize.ShloMosaic.PureOps.Ideal
import Idealize.ShloMosaic.Lib.ValueIdx

noncomputable section

namespace Cert.Spec

open Idealize.ShloMosaic Idealize.ShloMosaic.ValueIdx

/-- A matrix of extended reals with `a` rows and `b` columns, indexed as the library indexes a rank-two array. -/
abbrev Arr (a b : ℕ) : Type := (⟨2, ![a, b]⟩ : Shape).Idx → EReal

/-- The affine layer: entry (i, j) is the sum over k of X[i, k] * W[k, j], plus the bias B[0, j]. -/
def dense {M K N : ℕ} (X : Arr M K) (W : Arr K N) (B : Arr 1 N) : Arr M N :=
  fun ij => (∑ k : Fin K, X (ix2 (show Fin M from ij 0) k) * W (ix2 k (show Fin N from ij 1)))
    + B (ix2 (0 : Fin 1) (show Fin N from ij 1))

/-- The rectifier, entry by entry: the larger of the entry and the float zero. -/
def relu {M N : ℕ} (Y : Arr M N) : Arr M N :=
  fun ij => max (Y ij) (Ideal.ofBits .f32 0x00000000#32)

/-- `dense` at an entry given by its two coordinates. -/
theorem dense_ix2 {M K N : ℕ} (X : Arr M K) (W : Arr K N) (B : Arr 1 N) (i : Fin M) (j : Fin N) :
    dense X W B (ix2 i j) = (∑ k : Fin K, X (ix2 i k) * W (ix2 k j)) + B (ix2 (0 : Fin 1) j) := rfl

/-- `relu` at an entry. -/
theorem relu_apply {M N : ℕ} (Y : Arr M N) (ij : (⟨2, ![M, N]⟩ : Shape).Idx) :
    relu Y ij = max (Y ij) (Ideal.ofBits .f32 0x00000000#32) := rfl

end Cert.Spec

end
-- ==== Proof.LibBlockSum.lean ====
/-
  Two facts about finite sums in a commutative monoid, used to compare an inner product accumulated block by
  block with the same inner product taken in one pass.  Neither needs the summands to be finite numbers:
  only that addition is associative and commutative (as it is on the extended reals).
-/
import Mathlib.Algebra.BigOperators.Fin
import Mathlib.Algebra.BigOperators.Intervals
import Mathlib.Logic.Equiv.Fin.Basic

namespace Cert.BlockSum

open Finset

/-- A sum over `n = nb * b` indices is the sum over the `nb` blocks of the sums over each block's `b` indices;
    index `kk` of block `kb` is `kb * b + kk`. -/
theorem sum_blocks {M : Type*} [AddCommMonoid M] {n : ℕ} (nb b : ℕ) (h : n = nb * b) (f : Fin n → M) :
    ∑ k : Fin n, f k
      = ∑ kb : Fin nb, ∑ kk : Fin b, f ⟨kb.val * b + kk.val, by
          subst h
          calc kb.val * b + kk.val < kb.val * b + b := Nat.add_lt_add_left kk.isLt _
            _ = (kb.val + 1) * b := (Nat.succ_mul _ _).symm
            _ ≤ nb * b := Nat.mul_le_mul_right _ kb.isLt⟩ := by
  subst h
  rw [← Fintype.sum_prod_type', ← (finProdFinEquiv (m := nb) (n := b)).sum_comp]
  refine Fintype.sum_congr _ _ fun p => ?_
  congr 1
  apply Fin.ext
  show p.2.val + b * p.1.val = p.1.val * b + p.2.val
  rw [Nat.mul_comm, Nat.add_comm]

/-- A running total that starts at the first term added to zero and then adds one term per step is, after step
    `k`, the sum of the terms `0 … k`. -/
theorem running_total {M : Type*} [AddCommMonoid M] (P a : ℕ → M) (h0 : a 0 = 0 + P 0)
    (hs : ∀ k, a (k + 1) = a k + P (k + 1)) (k : ℕ) : a k = ∑ i ∈ range (k + 1), P i := by
  induction k with
  | zero => rw [h0, zero_add, sum_range_one]
  | succ k ih => rw [hs, ih, sum_range_succ (fun i => P i) (k + 1)]

/-- The same total over all `nb` blocks, as a sum over `Fin nb`. -/
theorem running_total_last {M : Type*} [AddCommMonoid M] (nb : ℕ) (P a : ℕ → M) (h0 : a 0 = 0 + P 0)
    (hs : ∀ k, a (k + 1) = a k + P (k + 1)) : a nb = ∑ i : Fin (nb + 1), P i.val := by
  rw [running_total P a h0 hs nb, Fin.sum_univ_eq_sum_range (fun i => P i) (nb + 1)]

end Cert.BlockSum
-- ==== Proof.KI.Value0.lean ====
/-
  The value of pallas call 0 (the first dense layer) at the ideal instance, where a float is an extended real,
  float addition and multiplication are the extended reals',
  the float maximum is the order's, a narrowing is the identity,
  and the matrix unit's product into a zero accumulator is a plain finite sum.

  Write X (dM x dK) for the activations, W (dK x dN) for the weights and B (1 x dN) for the bias row, as the region
  finds them.  Point t = (i * nJb + j) * nKb + k of the grid works on the 1024 x 1024 blocks (i, k) of X and (k, j) of
  W.  Entry (p, q) of the product of those two blocks is the sum over kk < 1024 of
  X[1024 i + p, 1024 k + kk] * W[1024 k + kk, 1024 j + q]: the contribution of block k of the contracted axis to the
  inner product of row 1024 i + p of X with column 1024 j + q of W.  By induction on the point, the accumulator after
  point (i, j, k) holds at (p, q) the sum of the contributions of blocks 0 … k (the restart at k = 0 gives 0 plus the
  first one, and 0 + x = x).  The contributions of all nKb blocks add up to the whole inner product over the dK
  indices: a finite sum regrouped, for which the addition only has to be associative and commutative, so no entry has
  to be finite.  At k = kLast the body adds B[0, 1024 j + q]
  and takes the maximum with the float zero (which stays the word it is on both sides),
  and that is the specification's entry (1024 i + p, 1024 j + q).  Block (i, j) of the output array is written back
  at that point, and these blocks cover the array, so the array ends holding the specification's layer.
-/
import proofs.«134509_j20693152432262_1_alg».proof.Proof.KI.Region0
import proofs.«134509_j20693152432262_1_alg».proof.Proof.Spec
import proofs.«134509_j20693152432262_1_alg».proof.Proof.LibBlockSum
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

/-! ## The layer's extents and arrays

The activations are dM x dK, the weights dK x dN, the bias row 1 x dN, the output dM x dN; blocks are 1024 x 1024; the grid
has (dM / 1024) x nJb x nKb points (row block, column block, block of the contracted axis, the last moving fastest), nJK =
nJb * nKb of them per row block and nPt in all; kLast = nKb - 1 is the last block of the contracted axis. -/
local notation "dM" => 8192
local notation "dK" => 4096
local notation "dN" => 8192
local notation "nKb" => 4
local notation "kLast" => 3
local notation "nJb" => 8
local notation "nJK" => 32
local notation "nPt" => 256
local notation "refX" => main_v0
local notation "refW" => main_v18
local notation "refB" => main_v19
local notation "refO" => main_v20

/-! ## The matrix product's index maps -/

theorem lhs0_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs0_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs0_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs0_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two blocks into a zero accumulator, at an entry: the inner product of a row with a column. -/
theorem mm0_apply (x w : FVec Ideal S1024x1024 .bf16) (p q : Fin 1024) :
    matmul dot_S1024x1024_S1024x1024_S1024x1024_1_0_0_1_n_n none x w (constant (F := Ideal) S1024x1024 .f32 0x00000000#32) (ix2 p q)
      = ∑ kk : Fin 1024, x (ix2 p kk) * w (ix2 kk q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs0_0 _ _
    | ⟨1, _⟩ => exact (lhs0_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs0_0 _ _).trans hk
    | ⟨1, _⟩ => exact rhs0_1 _ _)
  rw [el, er]

/-- The cleared accumulator is zero at every entry. -/
theorem pay1_0_apply (p q : Fin 1024) : (k0_pay1 (F := Ideal)) (ix2 p q) = 0 := by
  unfold k0_pay1
  simp only [shapeCast_self]
  exact Ideal.ofBits_zero_f32

/-- One accumulation step at an entry: what the accumulator held plus the inner product of the two blocks' row and column. -/
theorem pay2_0_apply (acc : FVec Ideal S1024x1024 .f32) (x w : FVec Ideal S1024x1024 .bf16) (p q : Fin 1024) :
    k0_pay2 (F := Ideal) acc x w (ix2 p q) = acc (ix2 p q) + ∑ kk : Fin 1024, x (ix2 p kk) * w (ix2 kk q) := by
  unfold k0_pay2
  simp only [shapeCast_self]
  exact congrArg (fun z => acc (ix2 p q) + z) (mm0_apply x w p q)

/-! ## The layer's last step -/

/-- What the last step does to an entry of the affine result: the rectifier, the maximum with the float zero. -/
abbrev fin0 (y : EReal) : EReal := max y (Ideal.ofBits .f32 0x00000000#32)

/-- The finished block at an entry: the accumulator's entry plus the bias row's entry of that column, through the last step. -/
theorem pay3_0_apply (acc : FVec Ideal S1024x1024 .f32) (b : FVec Ideal S1x1024 .f32) (p q : Fin 1024) :
    k0_pay3 (F := Ideal) acc b (ix2 p q) = fin0 (acc (ix2 p q) + b (ix2 (0 : Fin 1) q)) := by
  unfold k0_pay3
  simp only [shapeCast_self]
  refine congrArg (fun z => fin0 (acc (ix2 p q) + z)) ?_
  exact broadcastTo_apply b broadcasts_S1x1024_S1024x1024 (ix2 p q) (ix2 (0 : Fin 1) q) (fun a => by
    match a with
    | ⟨0, _⟩ => rfl
    | ⟨1, _⟩ => rfl)

/-- The specification at an entry, in the same words. -/
theorem spec0_apply (X : Cert.Spec.Arr dM dK) (W : Cert.Spec.Arr dK dN) (B : Cert.Spec.Arr 1 dN) (r : Fin dM) (s : Fin dN) :
    (Cert.Spec.relu <| Cert.Spec.dense X W B) (ix2 r s) = fin0 ((∑ k : Fin dK, X (ix2 r k) * W (ix2 k s)) + B (ix2 (0 : Fin 1) s)) := rfl

/-! ## The index maps, decided over the grid -/

/-- Point t = (i * nJb + j) * nKb + k reads block (i, k) of the activations, block (k, j) of the weights, block (0, j)
    of the bias row, and owns block (i, j) of the output. -/
theorem idx0 : ∀ t : Fin cfg0.N,
    win0_0.index t (0 : Fin 2) = t.val / nJK ∧ win0_0.index t (1 : Fin 2) = t.val % nKb
    ∧ win0_1.index t (0 : Fin 2) = t.val % nKb ∧ win0_1.index t (1 : Fin 2) = t.val / nKb % nJb
    ∧ win0_2.index t (0 : Fin 2) = 0 ∧ win0_2.index t (1 : Fin 2) = t.val / nKb % nJb
    ∧ win0_3.index t (0 : Fin 2) = t.val / nJK ∧ win0_3.index t (1 : Fin 2) = t.val / nKb % nJb :=
  (by decide +kernel : ∀ t : Fin grid0.N, _)

/-! ## The arrays and the blocks, by their literal types -/

variable (V : (c : Dev nD) → (b : Ref sig .tc) → Buf (Elt Ideal) ((c : Thread nD τ).loc b))

abbrev xarr0 (c : Dev nD) : Cert.Spec.Arr dM dK := V c refX
abbrev warr0 (c : Dev nD) : Cert.Spec.Arr dK dN := V c refW
abbrev barr0 (c : Dev nD) : Cert.Spec.Arr 1 dN := V c refB
abbrev xblk0 (c : Dev nD) (t : Fin cfg0.N) : FVec Ideal S1024x1024 .bf16 := iblk0 V c 0 t
abbrev wblk0 (c : Dev nD) (t : Fin cfg0.N) : FVec Ideal S1024x1024 .bf16 := iblk0 V c 1 t
abbrev bblk0 (c : Dev nD) (t : Fin cfg0.N) : FVec Ideal S1x1024 .f32 := iblk0 V c 2 t

/-- An entry of the activations' block at point t is the array's entry at block index times block size plus the
    coordinate inside the block, on each axis. -/
theorem xblk0_apply (c : Dev nD) (t : Fin cfg0.N) (p kk : Fin 1024) (r : Fin dM) (k : Fin dK)
    (hr : r.val = 1024 * (t.val / nJK) + p.val) (hk : k.val = 1024 * (t.val % nKb) + kk.val) :
    xblk0 V c t (ix2 p kk) = xarr0 V c (ix2 r k) := by
  obtain ⟨e0, e1, -⟩ := idx0 t
  show ((cfg0.win 0).blk t).view.read (Elt Ideal) (V c (Pipeline.arrRef spec0 0)) (ix2 p kk) = _
  rw [View.read_apply]
  show V c refX _ = V c refX _
  refine congrArg (V c refX) (funext fun a => Fin.ext ?_)
  match a with
  | ⟨0, _⟩ => show win0_0.index t (0 : Fin 2) * 1024 + 1 * p.val = r.val; omega
  | ⟨1, _⟩ => show win0_0.index t (1 : Fin 2) * 1024 + 1 * kk.val = k.val; omega

theorem wblk0_apply (c : Dev nD) (t : Fin cfg0.N) (kk q : Fin 1024) (k : Fin dK) (s : Fin dN)
    (hk : k.val = 1024 * (t.val % nKb) + kk.val) (hs : s.val = 1024 * (t.val / nKb % nJb) + q.val) :
    wblk0 V c t (ix2 kk q) = warr0 V c (ix2 k s) := by
  obtain ⟨-, -, e0, e1, -⟩ := idx0 t
  show ((cfg0.win 1).blk t).view.read (Elt Ideal) (V c (Pipeline.arrRef spec0 1)) (ix2 kk q) = _
  rw [View.read_apply]
  show V c refW _ = V c refW _
  refine congrArg (V c refW) (funext fun a => Fin.ext ?_)
  match a with
  | ⟨0, _⟩ => show win0_1.index t (0 : Fin 2) * 1024 + 1 * kk.val = k.val; omega
  | ⟨1, _⟩ => show win0_1.index t (1 : Fin 2) * 1024 + 1 * q.val = s.val; omega

theorem bblk0_apply (c : Dev nD) (t : Fin cfg0.N) (q : Fin 1024) (s : Fin dN)
    (hs : s.val = 1024 * (t.val / nKb % nJb) + q.val) :
    bblk0 V c t (ix2 (0 : Fin 1) q) = barr0 V c (ix2 (0 : Fin 1) s) := by
  obtain ⟨-, -, -, -, e0, e1, -⟩ := idx0 t
  show ((cfg0.win 2).blk t).view.read (Elt Ideal) (V c (Pipeline.arrRef spec0 2)) (ix2 (0 : Fin 1) q) = _
  rw [View.read_apply]
  show V c refB _ = V c refB _
  refine congrArg (V c refB) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 1024 + 1 * q.val = s.val; omega

/-! ## The contracted axis in blocks -/

/-- Entry kk of block kb of the contracted axis. -/
abbrev kix0 (kb : Fin nKb) (kk : Fin 1024) : Fin dK :=
  ⟨kb.val * 1024 + kk.val, by have := kb.isLt; have := kk.isLt; omega⟩

/-- What block kb of the contracted axis contributes to the inner product of row r of X with column s of W
    (nothing past the last block). -/
def part0 (X : Cert.Spec.Arr dM dK) (W : Cert.Spec.Arr dK dN) (r : Fin dM) (s : Fin dN) (kb : ℕ) : EReal :=
  if h : kb < nKb then ∑ kk : Fin 1024, X (ix2 r (kix0 ⟨kb, h⟩ kk)) * W (ix2 (kix0 ⟨kb, h⟩ kk) s) else 0

/-- The blocks' contributions add up to the whole inner product: a finite sum regrouped, which needs only that the
    addition of extended reals is associative and commutative. -/
theorem parts0_sum (X : Cert.Spec.Arr dM dK) (W : Cert.Spec.Arr dK dN) (r : Fin dM) (s : Fin dN) :
    ∑ kb ∈ Finset.range nKb, part0 X W r s kb = ∑ k : Fin dK, X (ix2 r k) * W (ix2 k s) := by
  rw [Cert.BlockSum.sum_blocks nKb 1024 (by decide) (fun k : Fin dK => X (ix2 r k) * W (ix2 k s)), Finset.sum_range]
  refine Finset.sum_congr rfl fun kb _ => ?_
  unfold part0
  rw [dif_pos kb.isLt]

/-- The inner product of the two blocks' row and column at point t is the contribution of block t mod nKb to the
    inner product of the arrays' row and column the entry stands for. -/
theorem prod0_apply (c : Dev nD) (t : Fin cfg0.N) (p q : Fin 1024) (r : Fin dM) (s : Fin dN)
    (hr : r.val = 1024 * (t.val / nJK) + p.val) (hs : s.val = 1024 * (t.val / nKb % nJb) + q.val) :
    ∑ kk : Fin 1024, xblk0 V c t (ix2 p kk) * wblk0 V c t (ix2 kk q)
      = part0 (xarr0 V c) (warr0 V c) r s (t.val % nKb) := by
  unfold part0
  rw [dif_pos (Nat.mod_lt _ (by decide))]
  refine Finset.sum_congr rfl fun kk _ => ?_
  exact congrArg₂ (· * ·)
    (xblk0_apply V c t p kk r (kix0 ⟨t.val % nKb, Nat.mod_lt _ (by decide)⟩ kk) hr (by show (t.val % nKb) * 1024 + kk.val = _; omega))
    (wblk0_apply V c t kk q (kix0 ⟨t.val % nKb, Nat.mod_lt _ (by decide)⟩ kk) s (by show (t.val % nKb) * 1024 + kk.val = _; omega) hs)

/-! ## What the accumulator holds after each point -/

/-- At a point with k = 0 the accumulator restarts from the cleared block. -/
theorem acc0_first (c : Dev nD) (n : ℕ) (hn : n < cfg0.N) (h0 : n % nKb = 0) :
    accAt0 V c n hn = k0_pay2 (F := Ideal) (k0_pay1 (F := Ideal)) (xblk0 V c ⟨n, hn⟩) (wblk0 V c ⟨n, hn⟩) :=
  accAt0_reset V c ⟨n, hn⟩ h0

/-- At any other point it continues from the point before. -/
theorem acc0_next (c : Dev nD) (n : ℕ) (hn : n + 1 < cfg0.N) (h0 : ¬(n + 1) % nKb = 0) :
    accAt0 V c (n + 1) hn = k0_pay2 (F := Ideal) (accAt0 V c n (Nat.lt_of_succ_lt hn)) (xblk0 V c ⟨n + 1, hn⟩) (wblk0 V c ⟨n + 1, hn⟩) :=
  accAt0_step V c ⟨n + 1, hn⟩ h0

/-- After point t = (i, j, k) the accumulator's entry (p, q) is the sum of the contributions of blocks 0 … k to the
    inner product of row 1024 i + p of the activations with column 1024 j + q of the weights: by induction on the
    point, the restart giving 0 plus the first contribution and every other point adding its own. -/
theorem acc0_inv (c : Dev nD) : ∀ (n : ℕ) (hn : n < cfg0.N) (p q : Fin 1024) (r : Fin dM) (s : Fin dN),
    r.val = 1024 * (n / nJK) + p.val → s.val = 1024 * (n / nKb % nJb) + q.val →
    accAt0 V c n hn (ix2 p q) = ∑ kb ∈ Finset.range (n % nKb + 1), part0 (xarr0 V c) (warr0 V c) r s kb := by
  intro n
  induction n with
  | zero =>
    intro hn p q r s hr hs
    rw [acc0_first V c 0 hn rfl, pay2_0_apply, pay1_0_apply, zero_add, prod0_apply V c ⟨0, hn⟩ p q r s hr hs]
    exact (Finset.sum_range_one _).symm
  | succ n ih =>
    intro hn p q r s hr hs
    by_cases h0 : (n + 1) % nKb = 0
    · rw [acc0_first V c (n + 1) hn h0, pay2_0_apply, pay1_0_apply, zero_add, prod0_apply V c ⟨n + 1, hn⟩ p q r s hr hs, h0]
      exact (Finset.sum_range_one _).symm
    · rw [acc0_next V c n hn h0, pay2_0_apply, prod0_apply V c ⟨n + 1, hn⟩ p q r s hr hs,
        ih (Nat.lt_of_succ_lt hn) p q r s (by omega) (by omega),
        show (n + 1) % nKb = n % nKb + 1 by omega, Finset.sum_range_succ _ (n % nKb + 1)]

/-! ## The finished block -/

/-- The layer's result, as the specification states it of the arrays the region finds. -/
abbrev out0 (c : Dev nD) : Cert.Spec.Arr dM dN := (Cert.Spec.relu <| Cert.Spec.dense (xarr0 V c) (warr0 V c) (barr0 V c))

/-- At a point t = (i, j, kLast) the finished block's entry (p, q) is the specification's entry (1024 i + p, 1024 j + q):
    the accumulator holds the whole inner product, the bias row's block holds the bias of that column, and the last
    step is the specification's. -/
theorem done0_apply (c : Dev nD) (t : Fin cfg0.N) (h3 : t.val % nKb = kLast) (p q : Fin 1024) (r : Fin dM) (s : Fin dN)
    (hr : r.val = 1024 * (t.val / nJK) + p.val) (hs : s.val = 1024 * (t.val / nKb % nJb) + q.val) :
    k0_pay3 (F := Ideal) (accAt0 V c t.val t.isLt) (bblk0 V c t) (ix2 p q) = out0 V c (ix2 r s) := by
  rw [pay3_0_apply, acc0_inv V c t.val t.isLt p q r s hr hs, bblk0_apply V c t q s hs,
    show t.val % nKb + 1 = nKb by omega, parts0_sum]
  exact (spec0_apply (xarr0 V c) (warr0 V c) (barr0 V c) r s).symm

/-- The same at any entry of the block and the entry of the array it stands for. -/
theorem done0_at (c : Dev nD) (t : Fin cfg0.N) (h3 : t.val % nKb = kLast) (j : S1024x1024.Idx) (i : (⟨2, ![dM, dN]⟩ : Shape).Idx)
    (h0 : (i 0).val = 1024 * (t.val / nJK) + (j 0).val) (h1 : (i 1).val = 1024 * (t.val / nKb % nJb) + (j 1).val) :
    k0_pay3 (F := Ideal) (accAt0 V c t.val t.isLt) (bblk0 V c t) j = out0 V c i := by
  obtain ⟨p, q, rfl⟩ : ∃ (p q : Fin 1024), j = ix2 p q := ⟨j 0, j 1, eq_ix2 j⟩
  obtain ⟨r, s, rfl⟩ : ∃ (r : Fin dM) (s : Fin dN), i = ix2 r s := ⟨i 0, i 1, eq_ix2 i⟩
  exact done0_apply V c t h3 p q r s h0 h1

/-! ## From the blocks to the array -/

/-- What a point with k = kLast writes back is its block of the specification's result. -/
theorem flushed0_eq (c : Dev nD) (t : Fin cfg0.N) (hf : (cfg0.win 3).flush t = true) :
    (dat0 V c).flushed 3 t = ((cfg0.win 3).blk t).view.read (Elt Ideal) (out0 V c) := by
  have h3 : t.val % nKb = kLast := (flush0_3 t).mp hf
  obtain ⟨-, -, -, -, -, -, e0, e1⟩ := idx0 t
  show (cfg0.win 3).cut (grid0.coords t) ((dat0 V c).after 3 t) = _
  rw [after0_3]
  funext j
  show k0_pay3 (F := Ideal) (accAt0 V c t.val t.isLt) (bblk0 V c t) j = out0 V c (((cfg0.win 3).blk t).view.emb j)
  exact done0_at V c t h3 j (((cfg0.win 3).blk t).view.emb j)
    (by show win0_3.index t (0 : Fin 2) * 1024 + 1 * (j 0).val = _; omega)
    (by show win0_3.index t (1 : Fin 2) * 1024 + 1 * (j 1).val = _; omega)

/-- An entry of the output array is in point t's block iff each coordinate is in the block's range on its axis. -/
theorem mem_blk0 (t : Fin cfg0.N) (i : (⟨2, ![dM, dN]⟩ : Shape).Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole refO).slice (win0_3.rect t)).set ↔ _
  rw [View.set_slice_whole, Rect.mem_set_unit]
  exact Iff.rfl

/-- Every entry (r, s) of the output array is written back: by the point (r / 1024, s / 1024, kLast). -/
theorem cover0 (i : (⟨2, ![dM, dN]⟩ : Shape).Idx) :
    ∃ t : Fin cfg0.N, (cfg0.win 3).flush t = true ∧ i ∈ ((cfg0.win 3).blk t).view.set := by
  have hi0 : (i 0).val < dM := idx2_lt0 i
  have hi1 : (i 1).val < dN := idx2_lt1 i
  have hN : cfg0.N = nPt := N_0
  obtain ⟨t, ht⟩ : ∃ t : Fin cfg0.N, t.val = ((i 0).val / 1024 * nJb + (i 1).val / 1024) * nKb + kLast :=
    ⟨⟨((i 0).val / 1024 * nJb + (i 1).val / 1024) * nKb + kLast, by rw [hN]; omega⟩, rfl⟩
  obtain ⟨-, -, -, -, -, -, e0, e1⟩ := idx0 t
  refine ⟨t, (flush0_3 t).mpr (by omega), ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE VALUE of pallas call 0: after the region the output array holds the specification's layer of the arrays the
    region found. -/
theorem value0 (c : Dev nD) :
    (dat0 (F := Ideal) V c).arrAt 3 cfg0.N = (Cert.Spec.relu <| Cert.Spec.dense (V c refX) (V c refW) (V c refB)) :=
  (dat0 V c).arrAt_eq_of_cover 3 (out0 V c) (flushed0_eq V c) cover0

end Cert.KernelIdeal.Hand
end
-- ==== Proof.KI.Value1.lean ====
/-
  The value of pallas call 1 (the second dense layer) at the ideal instance, where a float is an extended real,
  float addition and multiplication are the extended reals',
  the float maximum is the order's, a narrowing is the identity,
  and the matrix unit's product into a zero accumulator is a plain finite sum.

  Write X (dM x dK) for the activations, W (dK x dN) for the weights and B (1 x dN) for the bias row, as the region
  finds them.  Point t = (i * nJb + j) * nKb + k of the grid works on the 1024 x 1024 blocks (i, k) of X and (k, j) of
  W.  Entry (p, q) of the product of those two blocks is the sum over kk < 1024 of
  X[1024 i + p, 1024 k + kk] * W[1024 k + kk, 1024 j + q]: the contribution of block k of the contracted axis to the
  inner product of row 1024 i + p of X with column 1024 j + q of W.  By induction on the point, the accumulator after
  point (i, j, k) holds at (p, q) the sum of the contributions of blocks 0 … k (the restart at k = 0 gives 0 plus the
  first one, and 0 + x = x).  The contributions of all nKb blocks add up to the whole inner product over the dK
  indices: a finite sum regrouped, for which the addition only has to be associative and commutative, so no entry has
  to be finite.  At k = kLast the body adds B[0, 1024 j + q]
  and takes the maximum with the float zero (which stays the word it is on both sides),
  and that is the specification's entry (1024 i + p, 1024 j + q).  Block (i, j) of the output array is written back
  at that point, and these blocks cover the array, so the array ends holding the specification's layer.
-/
import proofs.«134509_j20693152432262_1_alg».proof.Proof.KI.Region1
import proofs.«134509_j20693152432262_1_alg».proof.Proof.Spec
import proofs.«134509_j20693152432262_1_alg».proof.Proof.LibBlockSum
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

/-! ## The layer's extents and arrays

The activations are dM x dK, the weights dK x dN, the bias row 1 x dN, the output dM x dN; blocks are 1024 x 1024; the grid
has (dM / 1024) x nJb x nKb points (row block, column block, block of the contracted axis, the last moving fastest), nJK =
nJb * nKb of them per row block and nPt in all; kLast = nKb - 1 is the last block of the contracted axis. -/
local notation "dM" => 8192
local notation "dK" => 8192
local notation "dN" => 8192
local notation "nKb" => 8
local notation "kLast" => 7
local notation "nJb" => 8
local notation "nJK" => 64
local notation "nPt" => 512
local notation "refX" => main_v20
local notation "refW" => main_v38
local notation "refB" => main_v39
local notation "refO" => main_v40

/-! ## The matrix product's index maps -/

theorem lhs1_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs1_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs1_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs1_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two blocks into a zero accumulator, at an entry: the inner product of a row with a column. -/
theorem mm1_apply (x w : FVec Ideal S1024x1024 .bf16) (p q : Fin 1024) :
    matmul dot_S1024x1024_S1024x1024_S1024x1024_1_0_0_1_n_n none x w (constant (F := Ideal) S1024x1024 .f32 0x00000000#32) (ix2 p q)
      = ∑ kk : Fin 1024, x (ix2 p kk) * w (ix2 kk q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs1_0 _ _
    | ⟨1, _⟩ => exact (lhs1_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs1_0 _ _).trans hk
    | ⟨1, _⟩ => exact rhs1_1 _ _)
  rw [el, er]

/-- The cleared accumulator is zero at every entry. -/
theorem pay1_1_apply (p q : Fin 1024) : (k1_pay1 (F := Ideal)) (ix2 p q) = 0 := by
  unfold k1_pay1
  simp only [shapeCast_self]
  exact Ideal.ofBits_zero_f32

/-- One accumulation step at an entry: what the accumulator held plus the inner product of the two blocks' row and column. -/
theorem pay2_1_apply (acc : FVec Ideal S1024x1024 .f32) (x w : FVec Ideal S1024x1024 .bf16) (p q : Fin 1024) :
    k1_pay2 (F := Ideal) acc x w (ix2 p q) = acc (ix2 p q) + ∑ kk : Fin 1024, x (ix2 p kk) * w (ix2 kk q) := by
  unfold k1_pay2
  simp only [shapeCast_self]
  exact congrArg (fun z => acc (ix2 p q) + z) (mm1_apply x w p q)

/-! ## The layer's last step -/

/-- What the last step does to an entry of the affine result: the rectifier, the maximum with the float zero. -/
abbrev fin1 (y : EReal) : EReal := max y (Ideal.ofBits .f32 0x00000000#32)

/-- The finished block at an entry: the accumulator's entry plus the bias row's entry of that column, through the last step. -/
theorem pay3_1_apply (acc : FVec Ideal S1024x1024 .f32) (b : FVec Ideal S1x1024 .f32) (p q : Fin 1024) :
    k1_pay3 (F := Ideal) acc b (ix2 p q) = fin1 (acc (ix2 p q) + b (ix2 (0 : Fin 1) q)) := by
  unfold k1_pay3
  simp only [shapeCast_self]
  refine congrArg (fun z => fin1 (acc (ix2 p q) + z)) ?_
  exact broadcastTo_apply b broadcasts_S1x1024_S1024x1024 (ix2 p q) (ix2 (0 : Fin 1) q) (fun a => by
    match a with
    | ⟨0, _⟩ => rfl
    | ⟨1, _⟩ => rfl)

/-- The specification at an entry, in the same words. -/
theorem spec1_apply (X : Cert.Spec.Arr dM dK) (W : Cert.Spec.Arr dK dN) (B : Cert.Spec.Arr 1 dN) (r : Fin dM) (s : Fin dN) :
    (Cert.Spec.relu <| Cert.Spec.dense X W B) (ix2 r s) = fin1 ((∑ k : Fin dK, X (ix2 r k) * W (ix2 k s)) + B (ix2 (0 : Fin 1) s)) := rfl

/-! ## The index maps, decided over the grid -/

/-- Point t = (i * nJb + j) * nKb + k reads block (i, k) of the activations, block (k, j) of the weights, block (0, j)
    of the bias row, and owns block (i, j) of the output. -/
theorem idx1 : ∀ t : Fin cfg1.N,
    win1_0.index t (0 : Fin 2) = t.val / nJK ∧ win1_0.index t (1 : Fin 2) = t.val % nKb
    ∧ win1_1.index t (0 : Fin 2) = t.val % nKb ∧ win1_1.index t (1 : Fin 2) = t.val / nKb % nJb
    ∧ win1_2.index t (0 : Fin 2) = 0 ∧ win1_2.index t (1 : Fin 2) = t.val / nKb % nJb
    ∧ win1_3.index t (0 : Fin 2) = t.val / nJK ∧ win1_3.index t (1 : Fin 2) = t.val / nKb % nJb :=
  (by decide +kernel : ∀ t : Fin grid1.N, _)

/-! ## The arrays and the blocks, by their literal types -/

variable (V : (c : Dev nD) → (b : Ref sig .tc) → Buf (Elt Ideal) ((c : Thread nD τ).loc b))

abbrev xarr1 (c : Dev nD) : Cert.Spec.Arr dM dK := V c refX
abbrev warr1 (c : Dev nD) : Cert.Spec.Arr dK dN := V c refW
abbrev barr1 (c : Dev nD) : Cert.Spec.Arr 1 dN := V c refB
abbrev xblk1 (c : Dev nD) (t : Fin cfg1.N) : FVec Ideal S1024x1024 .bf16 := iblk1 V c 0 t
abbrev wblk1 (c : Dev nD) (t : Fin cfg1.N) : FVec Ideal S1024x1024 .bf16 := iblk1 V c 1 t
abbrev bblk1 (c : Dev nD) (t : Fin cfg1.N) : FVec Ideal S1x1024 .f32 := iblk1 V c 2 t

/-- An entry of the activations' block at point t is the array's entry at block index times block size plus the
    coordinate inside the block, on each axis. -/
theorem xblk1_apply (c : Dev nD) (t : Fin cfg1.N) (p kk : Fin 1024) (r : Fin dM) (k : Fin dK)
    (hr : r.val = 1024 * (t.val / nJK) + p.val) (hk : k.val = 1024 * (t.val % nKb) + kk.val) :
    xblk1 V c t (ix2 p kk) = xarr1 V c (ix2 r k) := by
  obtain ⟨e0, e1, -⟩ := idx1 t
  show ((cfg1.win 0).blk t).view.read (Elt Ideal) (V c (Pipeline.arrRef spec1 0)) (ix2 p kk) = _
  rw [View.read_apply]
  show V c refX _ = V c refX _
  refine congrArg (V c refX) (funext fun a => Fin.ext ?_)
  match a with
  | ⟨0, _⟩ => show win1_0.index t (0 : Fin 2) * 1024 + 1 * p.val = r.val; omega
  | ⟨1, _⟩ => show win1_0.index t (1 : Fin 2) * 1024 + 1 * kk.val = k.val; omega

theorem wblk1_apply (c : Dev nD) (t : Fin cfg1.N) (kk q : Fin 1024) (k : Fin dK) (s : Fin dN)
    (hk : k.val = 1024 * (t.val % nKb) + kk.val) (hs : s.val = 1024 * (t.val / nKb % nJb) + q.val) :
    wblk1 V c t (ix2 kk q) = warr1 V c (ix2 k s) := by
  obtain ⟨-, -, e0, e1, -⟩ := idx1 t
  show ((cfg1.win 1).blk t).view.read (Elt Ideal) (V c (Pipeline.arrRef spec1 1)) (ix2 kk q) = _
  rw [View.read_apply]
  show V c refW _ = V c refW _
  refine congrArg (V c refW) (funext fun a => Fin.ext ?_)
  match a with
  | ⟨0, _⟩ => show win1_1.index t (0 : Fin 2) * 1024 + 1 * kk.val = k.val; omega
  | ⟨1, _⟩ => show win1_1.index t (1 : Fin 2) * 1024 + 1 * q.val = s.val; omega

theorem bblk1_apply (c : Dev nD) (t : Fin cfg1.N) (q : Fin 1024) (s : Fin dN)
    (hs : s.val = 1024 * (t.val / nKb % nJb) + q.val) :
    bblk1 V c t (ix2 (0 : Fin 1) q) = barr1 V c (ix2 (0 : Fin 1) s) := by
  obtain ⟨-, -, -, -, e0, e1, -⟩ := idx1 t
  show ((cfg1.win 2).blk t).view.read (Elt Ideal) (V c (Pipeline.arrRef spec1 2)) (ix2 (0 : Fin 1) q) = _
  rw [View.read_apply]
  show V c refB _ = V c refB _
  refine congrArg (V c refB) (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 1024 + 1 * q.val = s.val; omega

/-! ## The contracted axis in blocks -/

/-- Entry kk of block kb of the contracted axis. -/
abbrev kix1 (kb : Fin nKb) (kk : Fin 1024) : Fin dK :=
  ⟨kb.val * 1024 + kk.val, by have := kb.isLt; have := kk.isLt; omega⟩

/-- What block kb of the contracted axis contributes to the inner product of row r of X with column s of W
    (nothing past the last block). -/
def part1 (X : Cert.Spec.Arr dM dK) (W : Cert.Spec.Arr dK dN) (r : Fin dM) (s : Fin dN) (kb : ℕ) : EReal :=
  if h : kb < nKb then ∑ kk : Fin 1024, X (ix2 r (kix1 ⟨kb, h⟩ kk)) * W (ix2 (kix1 ⟨kb, h⟩ kk) s) else 0

/-- The blocks' contributions add up to the whole inner product: a finite sum regrouped, which needs only that the
    addition of extended reals is associative and commutative. -/
theorem parts1_sum (X : Cert.Spec.Arr dM dK) (W : Cert.Spec.Arr dK dN) (r : Fin dM) (s : Fin dN) :
    ∑ kb ∈ Finset.range nKb, part1 X W r s kb = ∑ k : Fin dK, X (ix2 r k) * W (ix2 k s) := by
  rw [Cert.BlockSum.sum_blocks nKb 1024 (by decide) (fun k : Fin dK => X (ix2 r k) * W (ix2 k s)), Finset.sum_range]
  refine Finset.sum_congr rfl fun kb _ => ?_
  unfold part1
  rw [dif_pos kb.isLt]

/-- The inner product of the two blocks' row and column at point t is the contribution of block t mod nKb to the
    inner product of the arrays' row and column the entry stands for. -/
theorem prod1_apply (c : Dev nD) (t : Fin cfg1.N) (p q : Fin 1024) (r : Fin dM) (s : Fin dN)
    (hr : r.val = 1024 * (t.val / nJK) + p.val) (hs : s.val = 1024 * (t.val / nKb % nJb) + q.val) :
    ∑ kk : Fin 1024, xblk1 V c t (ix2 p kk) * wblk1 V c t (ix2 kk q)
      = part1 (xarr1 V c) (warr1 V c) r s (t.val % nKb) := by
  unfold part1
  rw [dif_pos (Nat.mod_lt _ (by decide))]
  refine Finset.sum_congr rfl fun kk _ => ?_
  exact congrArg₂ (· * ·)
    (xblk1_apply V c t p kk r (kix1 ⟨t.val % nKb, Nat.mod_lt _ (by decide)⟩ kk) hr (by show (t.val % nKb) * 1024 + kk.val = _; omega))
    (wblk1_apply V c t kk q (kix1 ⟨t.val % nKb, Nat.mod_lt _ (by decide)⟩ kk) s (by show (t.val % nKb) * 1024 + kk.val = _; omega) hs)

/-! ## What the accumulator holds after each point -/

/-- At a point with k = 0 the accumulator restarts from the cleared block. -/
theorem acc1_first (c : Dev nD) (n : ℕ) (hn : n < cfg1.N) (h0 : n % nKb = 0) :
    accAt1 V c n hn = k1_pay2 (F := Ideal) (k1_pay1 (F := Ideal)) (xblk1 V c ⟨n, hn⟩) (wblk1 V c ⟨n, hn⟩) :=
  accAt1_reset V c ⟨n, hn⟩ h0

/-- At any other point it continues from the point before. -/
theorem acc1_next (c : Dev nD) (n : ℕ) (hn : n + 1 < cfg1.N) (h0 : ¬(n + 1) % nKb = 0) :
    accAt1 V c (n + 1) hn = k1_pay2 (F := Ideal) (accAt1 V c n (Nat.lt_of_succ_lt hn)) (xblk1 V c ⟨n + 1, hn⟩) (wblk1 V c ⟨n + 1, hn⟩) :=
  accAt1_step V c ⟨n + 1, hn⟩ h0

/-- After point t = (i, j, k) the accumulator's entry (p, q) is the sum of the contributions of blocks 0 … k to the
    inner product of row 1024 i + p of the activations with column 1024 j + q of the weights: by induction on the
    point, the restart giving 0 plus the first contribution and every other point adding its own. -/
theorem acc1_inv (c : Dev nD) : ∀ (n : ℕ) (hn : n < cfg1.N) (p q : Fin 1024) (r : Fin dM) (s : Fin dN),
    r.val = 1024 * (n / nJK) + p.val → s.val = 1024 * (n / nKb % nJb) + q.val →
    accAt1 V c n hn (ix2 p q) = ∑ kb ∈ Finset.range (n % nKb + 1), part1 (xarr1 V c) (warr1 V c) r s kb := by
  intro n
  induction n with
  | zero =>
    intro hn p q r s hr hs
    rw [acc1_first V c 0 hn rfl, pay2_1_apply, pay1_1_apply, zero_add, prod1_apply V c ⟨0, hn⟩ p q r s hr hs]
    exact (Finset.sum_range_one _).symm
  | succ n ih =>
    intro hn p q r s hr hs
    by_cases h0 : (n + 1) % nKb = 0
    · rw [acc1_first V c (n + 1) hn h0, pay2_1_apply, pay1_1_apply, zero_add, prod1_apply V c ⟨n + 1, hn⟩ p q r s hr hs, h0]
      exact (Finset.sum_range_one _).symm
    · rw [acc1_next V c n hn h0, pay2_1_apply, prod1_apply V c ⟨n + 1, hn⟩ p q r s hr hs,
        ih (Nat.lt_of_succ_lt hn) p q r s (by omega) (by omega),
        show (n + 1) % nKb = n % nKb + 1 by omega, Finset.sum_range_succ _ (n % nKb + 1)]

/-! ## The finished block -/

/-- The layer's result, as the specification states it of the arrays the region finds. -/
abbrev out1 (c : Dev nD) : Cert.Spec.Arr dM dN := (Cert.Spec.relu <| Cert.Spec.dense (xarr1 V c) (warr1 V c) (barr1 V c))

/-- At a point t = (i, j, kLast) the finished block's entry (p, q) is the specification's entry (1024 i + p, 1024 j + q):
    the accumulator holds the whole inner product, the bias row's block holds the bias of that column, and the last
    step is the specification's. -/
theorem done1_apply (c : Dev nD) (t : Fin cfg1.N) (h3 : t.val % nKb = kLast) (p q : Fin 1024) (r : Fin dM) (s : Fin dN)
    (hr : r.val = 1024 * (t.val / nJK) + p.val) (hs : s.val = 1024 * (t.val / nKb % nJb) + q.val) :
    k1_pay3 (F := Ideal) (accAt1 V c t.val t.isLt) (bblk1 V c t) (ix2 p q) = out1 V c (ix2 r s) := by
  rw [pay3_1_apply, acc1_inv V c t.val t.isLt p q r s hr hs, bblk1_apply V c t q s hs,
    show t.val % nKb + 1 = nKb by omega, parts1_sum]
  exact (spec1_apply (xarr1 V c) (warr1 V c) (barr1 V c) r s).symm

/-- The same at any entry of the block and the entry of the array it stands for. -/
theorem done1_at (c : Dev nD) (t : Fin cfg1.N) (h3 : t.val % nKb = kLast) (j : S1024x1024.Idx) (i : (⟨2, ![dM, dN]⟩ : Shape).Idx)
    (h0 : (i 0).val = 1024 * (t.val / nJK) + (j 0).val) (h1 : (i 1).val = 1024 * (t.val / nKb % nJb) + (j 1).val) :
    k1_pay3 (F := Ideal) (accAt1 V c t.val t.isLt) (bblk1 V c t) j = out1 V c i := by
  obtain ⟨p, q, rfl⟩ : ∃ (p q : Fin 1024), j = ix2 p q := ⟨j 0, j 1, eq_ix2 j⟩
  obtain ⟨r, s, rfl⟩ : ∃ (r : Fin dM) (s : Fin dN), i = ix2 r s := ⟨i 0, i 1, eq_ix2 i⟩
  exact done1_apply V c t h3 p q r s h0 h1

/-! ## From the blocks to the array -/

/-- What a point with k = kLast writes back is its block of the specification's result. -/
theorem flushed1_eq (c : Dev nD) (t : Fin cfg1.N) (hf : (cfg1.win 3).flush t = true) :
    (dat1 V c).flushed 3 t = ((cfg1.win 3).blk t).view.read (Elt Ideal) (out1 V c) := by
  have h3 : t.val % nKb = kLast := (flush1_3 t).mp hf
  obtain ⟨-, -, -, -, -, -, e0, e1⟩ := idx1 t
  show (cfg1.win 3).cut (grid1.coords t) ((dat1 V c).after 3 t) = _
  rw [after1_3]
  funext j
  show k1_pay3 (F := Ideal) (accAt1 V c t.val t.isLt) (bblk1 V c t) j = out1 V c (((cfg1.win 3).blk t).view.emb j)
  exact done1_at V c t h3 j (((cfg1.win 3).blk t).view.emb j)
    (by show win1_3.index t (0 : Fin 2) * 1024 + 1 * (j 0).val = _; omega)
    (by show win1_3.index t (1 : Fin 2) * 1024 + 1 * (j 1).val = _; omega)

/-- An entry of the output array is in point t's block iff each coordinate is in the block's range on its axis. -/
theorem mem_blk1 (t : Fin cfg1.N) (i : (⟨2, ![dM, dN]⟩ : Shape).Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole refO).slice (win1_3.rect t)).set ↔ _
  rw [View.set_slice_whole, Rect.mem_set_unit]
  exact Iff.rfl

/-- Every entry (r, s) of the output array is written back: by the point (r / 1024, s / 1024, kLast). -/
theorem cover1 (i : (⟨2, ![dM, dN]⟩ : Shape).Idx) :
    ∃ t : Fin cfg1.N, (cfg1.win 3).flush t = true ∧ i ∈ ((cfg1.win 3).blk t).view.set := by
  have hi0 : (i 0).val < dM := idx2_lt0 i
  have hi1 : (i 1).val < dN := idx2_lt1 i
  have hN : cfg1.N = nPt := N_1
  obtain ⟨t, ht⟩ : ∃ t : Fin cfg1.N, t.val = ((i 0).val / 1024 * nJb + (i 1).val / 1024) * nKb + kLast :=
    ⟨⟨((i 0).val / 1024 * nJb + (i 1).val / 1024) * nKb + kLast, by rw [hN]; omega⟩, rfl⟩
  obtain ⟨-, -, -, -, -, -, e0, e1⟩ := idx1 t
  refine ⟨t, (flush1_3 t).mpr (by omega), ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- THE VALUE of pallas call 1: after the region the output array holds the specification's layer of the arrays the
    region found. -/
theorem value1 (c : Dev nD) :
    (dat1 (F := Ideal) V c).arrAt 3 cfg1.N = (Cert.Spec.relu <| Cert.Spec.dense (V c refX) (V c refW) (V c refB)) :=
  (dat1 V c).arrAt_eq_of_cover 3 (out1 V c) (flushed1_eq V c) cover1

end Cert.KernelIdeal.Hand
end
-- ==== Proof.KI.Value2.lean ====
/-
  The value of pallas call 2 (the third dense layer) at the ideal instance, where a float is an extended real,
  float addition and multiplication are the extended reals',
  and the matrix unit's product into a zero accumulator is a plain finite sum.

  Write X (dM x dK) for the activations, W (dK x dN) for the weights and B (1 x dN) for the bias row, as the region
  finds them.  Point t = (i * nJb + j) * nKb + k of the grid works on the 1024 x 1024 blocks (i, k) of X and (k, j) of
  W.  Entry (p, q) of the product of those two blocks is the sum over kk < 1024 of
  X[1024 i + p, 1024 k + kk] * W[1024 k + kk, 1024 j + q]: the contribution of block k of the contracted axis to the
  inner product of row 1024 i + p of X with column 1024 j + q of W.  By induction on the point, the accumulator after
  point (i, j, k) holds at (p, q) the sum of the contributions of blocks 0 … k (the restart at k = 0 gives 0 plus the
  first one, and 0 + x = x).  The contributions of all nKb blocks add up to the whole inner product over the dK
  indices: a finite sum regrouped, for which the addition only has to be associative and commutative, so no entry has
  to be finite.  At k = kLast the body adds B[0, 1024 j + q]
  and that is the specification's entry (1024 i + p, 1024 j + q).  Block (i, j) of the output array is written back
  at that point, and these blocks cover the array, so the array ends holding the specification's layer.
-/
import proofs.«134509_j20693152432262_1_alg».proof.Proof.KI.Region2
import proofs.«134509_j20693152432262_1_alg».proof.Proof.Spec
import proofs.«134509_j20693152432262_1_alg».proof.Proof.LibBlockSum
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

/-! ## The layer's extents and arrays

The activations are dM x dK, the weights dK x dN, the bias row 1 x dN, the output dM x dN; blocks are 1024 x 1024; the grid
has (dM / 1024) x nJb x nKb points (row block, column block, block of the contracted axis, the last moving fastest), nJK =
nJb * nKb of them per row block and nPt in all; kLast = nKb - 1 is the last block of the contracted axis. -/
local notation "dM" => 8192
local notation "dK" => 8192
local notation "dN" => 4096
local notation "nKb" => 8
local notation "kLast" => 7
local notation "nJb" => 4
local notation "nJK" => 32
local notation "nPt" => 256
local notation "refX" => main_v40
local notation "refW" => main_v58
local notation "refB" => main_v59
local notation "refO" => main_v60

/-! ## The matrix product's index maps -/

theorem lhs2_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs2_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs2_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs2_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two blocks into a zero accumulator, at an entry: the inner product of a row with a column. -/
theorem mm2_apply (x w : FVec Ideal S1024x1024 .bf16) (p q : Fin 1024) :
    matmul dot_S1024x1024_S1024x1024_S1024x1024_1_0_0_1_n_n none x w (constant (F := Ideal) S1024x1024 .f32 0x00000000#32) (ix2 p q)
      = ∑ kk : Fin 1024, x (ix2 p kk) * w (ix2 kk q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs2_0 _ _
    | ⟨1, _⟩ => exact (lhs2_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs2_0 _ _).trans hk
    | ⟨1, _⟩ => exact rhs2_1 _ _)
  rw [el, er]

/-- The cleared accumulator is zero at every entry. -/
theorem pay1_2_apply (p q : Fin 1024) : (k2_pay1 (F := Ideal)) (ix2 p q) = 0 := by
  unfold k2_pay1
  simp only [shapeCast_self]
  exact Ideal.ofBits_zero_f32

/-- One accumulation step at an entry: what the accumulator held plus the inner product of the two blocks' row and column. -/
theorem pay2_2_apply (acc : FVec Ideal S1024x1024 .f32) (x w : FVec Ideal S1024x1024 .bf16) (p q : Fin 1024) :
    k2_pay2 (F := Ideal) acc x w (ix2 p q) = acc (ix2 p q) + ∑ kk : Fin 1024, x (ix2 p kk) * w (ix2 kk q) := by
  unfold k2_pay2
  simp only [shapeCast_self]
  exact congrArg (fun z => acc (ix2 p q) + z) (mm2_apply x w p q)

/-! ## The layer's last step -/

/-- What the last step does to an entry of the affine result: nothing, this layer has no rectifier. -/
abbrev fin2 (y : EReal) : EReal := y

/-- The finished block at an entry: the accumulator's entry plus the bias row's entry of that column, through the last step. -/
theorem pay3_2_apply (acc : FVec Ideal S1024x1024 .f32) (b : FVec Ideal S1x1024 .f32) (p q : Fin 1024) :
    k2_pay3 (F := Ideal) acc b (ix2 p q) = fin2 (acc (ix2 p q) + b (ix2 (0 : Fin 1) q)) := by
  unfold k2_pay3
  simp only [shapeCast_self]
  refine congrArg (fun z => fin2 (acc (ix2 p q) + z)) ?_
  exact broadcastTo_apply b broadcasts_S1x1024_S1024x1024 (ix2 p q) (ix2 (0 : Fin 1) q) (fun a => by
    match a with
    | ⟨0, _⟩ => rfl
    | ⟨1, _⟩ => rfl)

/-- The specification at an entry, in the same words. -/
theorem spec2_apply (X : Cert.Spec.Arr dM dK) (W : Cert.Spec.Arr dK dN) (B : Cert.Spec.Arr 1 dN) (r : Fin dM) (s : Fin dN) :
    (Cert.Spec.dense X W B) (ix2 r s) = fin2 ((∑ k : Fin dK, X (ix2 r k) * W (ix2 k s)) + B (ix2 (0 : Fin 1) s)) := rfl

/-! ## The index maps, decided over the grid -/

/-- Point t = (i * nJb + j) * nKb + k reads block (i, k) of the activations, block (k, j) of the weights, block (0, j)
    of the bias row, and owns block (i, j) of the output. -/
theorem idx2 : ∀ t : Fin cfg2.N,
    win2_0.index t (0 : Fin 2) = t.val / nJK ∧ win2_0.index t (1 : Fin 2) = t.val % nKb
    ∧ win2_1.index t (0 : Fin 2) = t.val % nKb ∧ win2_1.index t (1 : Fin 2) = t.val / nKb % nJb
    ∧ win2_2.index t (0 : Fin 2) = 0 ∧ win2_2.index t (1 : Fin 2) = t.val / nKb % nJb
    ∧ win2_3.index t (0 : Fin 2) = t.val / nJK ∧ win2_3.index t (1 : Fin 2) = t.val / nKb % nJb :=
  (by decide +kernel : ∀ t : Fin grid2.N, _)

/-! ## The arrays and the blocks, by their literal types -/

variable (V : (c : Dev nD) → (b : Ref sig .tc) → Buf (Elt Ideal) ((c : Thread nD τ).loc b))

abbrev xarr2 (c : Dev nD) : Cert.Spec.Arr dM dK := V c refX
abbrev warr2 (c : Dev nD) : Cert.Spec.Arr dK dN := V c refW
abbrev barr2 (c : Dev nD) : Cert.Spec.Arr 1 dN := V c refB
abbrev xblk2 (c : Dev nD) (t : Fin cfg2.N) : FVec Ideal S1024x1024 .bf16 := iblk2 V c 0 t
abbrev wblk2 (c : Dev nD) (t : Fin cfg2.N) : FVec Ideal S1024x1024 .bf16 := iblk2 V c 1 t
abbrev bblk2 (c : Dev nD) (t : Fin cfg2.N) : FVec Ideal S1x1024 .f32 := iblk2 V c 2 t

/-- An entry of the activations' block at point t is the array's entry at block index times block size plus the
    coordinate inside the block, on each axis. -/
theorem xblk2_apply (c : Dev nD) (t : Fin cfg2.N) (p kk : Fin 1024) (r : Fin dM) (k : Fin dK)
    (hr : r.val = 1024 * (t.val / nJK) + p.val) (hk : k.val = 1024 * (t.val % nKb) + kk.val) :
    xblk2 V c t (ix2 p kk) = xarr2 V c (ix2 r k) := by
  obtain ⟨e0, e1, -⟩ := idx2 t
  show ((cfg2.win 0).blk t).view.read (Elt Ideal) (V c (Pipeline.arrRef spec2 0)) (ix2 p kk) = _
  rw [View.read_apply]
  show V c refX _ = V c refX _
  refine congrArg (V c refX) (funext fun a => Fin.ext ?_)
  match a with
  | ⟨0, _⟩ => show win2_0.index t (0 : Fin 2) * 1024 + 1 * p.val = r.val; omega
  | ⟨1, _⟩ => show win2_0.index t (1 : Fin 2) * 1024 + 1 * kk.val = k.val; omega

theorem wblk2_apply (c : Dev nD) (t : Fin cfg2.N) (kk q : Fin 1024) (k : Fin dK) (s : Fin dN)
    (hk : k.val = 1024 * (t.val % nKb) + kk.val) (hs : s.val = 1024 * (t.val / nKb % nJb) + q.val) :
    wblk2 V c t (ix2 kk q) = warr2 V c (ix2 k s) := by
  obtain ⟨-, -, e0, e1, -⟩ := idx2 t
  show ((cfg2.win 1).blk t).view.read (Elt Ideal) (V c (Pipeline.arrRef spec2 1)) (ix2 kk q) = _
  rw [View.read_apply]
  show V c refW _ = V c refW _
  refine congrArg (V c refW) (funext fun a => Fin.ext ?_)
  match a with
  | ⟨0, _⟩ => show win2_1.index t (0 : Fin 2) * 1024 + 1 * kk.val = k.val; omega
  | ⟨1, _⟩ => show win2_1.index t (1 : Fin 2) * 1024 + 1 * q.val = s.val; omega

theorem bblk2_apply (c : Dev nD) (t : Fin cfg2.N) (q : Fin 1024) (s : Fin dN)
    (hs : s.val = 1024 * (t.val / nKb % nJb) + q.val) :
    bblk2 V c t (ix2 (0 : Fin 1) q) = barr2 V c (ix2 (0 : Fin 1) s) := by
  obtain ⟨-, -, -, -, e0, e1, -⟩ := idx2 t
  show ((cfg2.win 2).blk t).view.read (Elt Ideal) (V c (Pipeline.arrRef spec2 2)) (ix2 (0 : Fin 1) q) = _
  rw [View.read_apply]
  show V c refB _ = V c refB _
  refine congrArg (V c refB) (funext fun a => Fin.ext ?_)
  match a with
  | ⟨0, _⟩ => show win2_2.index t (0 : Fin 2) * 1 + 1 * (0 : Fin 1).val = (0 : Fin 1).val; omega
  | ⟨1, _⟩ => show win2_2.index t (1 : Fin 2) * 1024 + 1 * q.val = s.val; omega

/-! ## The contracted axis in blocks -/

/-- Entry kk of block kb of the contracted axis. -/
abbrev kix2 (kb : Fin nKb) (kk : Fin 1024) : Fin dK :=
  ⟨kb.val * 1024 + kk.val, by have := kb.isLt; have := kk.isLt; omega⟩

/-- What block kb of the contracted axis contributes to the inner product of row r of X with column s of W
    (nothing past the last block). -/
def part2 (X : Cert.Spec.Arr dM dK) (W : Cert.Spec.Arr dK dN) (r : Fin dM) (s : Fin dN) (kb : ℕ) : EReal :=
  if h : kb < nKb then ∑ kk : Fin 1024, X (ix2 r (kix2 ⟨kb, h⟩ kk)) * W (ix2 (kix2 ⟨kb, h⟩ kk) s) else 0

/-- The blocks' contributions add up to the whole inner product: a finite sum regrouped, which needs only that the
    addition of extended reals is associative and commutative. -/
theorem parts2_sum (X : Cert.Spec.Arr dM dK) (W : Cert.Spec.Arr dK dN) (r : Fin dM) (s : Fin dN) :
    ∑ kb ∈ Finset.range nKb, part2 X W r s kb = ∑ k : Fin dK, X (ix2 r k) * W (ix2 k s) := by
  rw [Cert.BlockSum.sum_blocks nKb 1024 (by decide) (fun k : Fin dK => X (ix2 r k) * W (ix2 k s)), Finset.sum_range]
  refine Finset.sum_congr rfl fun kb _ => ?_
  unfold part2
  rw [dif_pos kb.isLt]

/-- The inner product of the two blocks' row and column at point t is the contribution of block t mod nKb to the
    inner product of the arrays' row and column the entry stands for. -/
theorem prod2_apply (c : Dev nD) (t : Fin cfg2.N) (p q : Fin 1024) (r : Fin dM) (s : Fin dN)
    (hr : r.val = 1024 * (t.val / nJK) + p.val) (hs : s.val = 1024 * (t.val / nKb % nJb) + q.val) :
    ∑ kk : Fin 1024, xblk2 V c t (ix2 p kk) * wblk2 V c t (ix2 kk q)
      = part2 (xarr2 V c) (warr2 V c) r s (t.val % nKb) := by
  unfold part2
  rw [dif_pos (Nat.mod_lt _ (by decide))]
  refine Finset.sum_congr rfl fun kk _ => ?_
  exact congrArg₂ (· * ·)
    (xblk2_apply V c t p kk r (kix2 ⟨t.val % nKb, Nat.mod_lt _ (by decide)⟩ kk) hr (by show (t.val % nKb) * 1024 + kk.val = _; omega))
    (wblk2_apply V c t kk q (kix2 ⟨t.val % nKb, Nat.mod_lt _ (by decide)⟩ kk) s (by show (t.val % nKb) * 1024 + kk.val = _; omega) hs)

/-! ## What the accumulator holds after each point -/

/-- At a point with k = 0 the accumulator restarts from the cleared block. -/
theorem acc2_first (c : Dev nD) (n : ℕ) (hn : n < cfg2.N) (h0 : n % nKb = 0) :
    accAt2 V c n hn = k2_pay2 (F := Ideal) (k2_pay1 (F := Ideal)) (xblk2 V c ⟨n, hn⟩) (wblk2 V c ⟨n, hn⟩) :=
  accAt2_reset V c ⟨n, hn⟩ h0

/-- At any other point it continues from the point before. -/
theorem acc2_next (c : Dev nD) (n : ℕ) (hn : n + 1 < cfg2.N) (h0 : ¬(n + 1) % nKb = 0) :
    accAt2 V c (n + 1) hn = k2_pay2 (F := Ideal) (accAt2 V c n (Nat.lt_of_succ_lt hn)) (xblk2 V c ⟨n + 1, hn⟩) (wblk2 V c ⟨n + 1, hn⟩) :=
  accAt2_step V c ⟨n + 1, hn⟩ h0

/-- After point t = (i, j, k) the accumulator's entry (p, q) is the sum of the contributions of blocks 0 … k to the
    inner product of row 1024 i + p of the activations with column 1024 j + q of the weights: by induction on the
    point, the restart giving 0 plus the first contribution and every other point adding its own. -/
theorem acc2_inv (c : Dev nD) : ∀ (n : ℕ) (hn : n < cfg2.N) (p q : Fin 1024) (r : Fin dM) (s : Fin dN),
    r.val = 1024 * (n / nJK) + p.val → s.val = 1024 * (n / nKb % nJb) + q.val →
    accAt2 V c n hn (ix2 p q) = ∑ kb ∈ Finset.range (n % nKb + 1), part2 (xarr2 V c) (warr2 V c) r s kb := by
  intro n
  induction n with
  | zero =>
    intro hn p q r s hr hs
    rw [acc2_first V c 0 hn rfl, pay2_2_apply, pay1_2_apply, zero_add, prod2_apply V c ⟨0, hn⟩ p q r s hr hs]
    exact (Finset.sum_range_one _).symm
  | succ n ih =>
    intro hn p q r s hr hs
    by_cases h0 : (n + 1) % nKb = 0
    · rw [acc2_first V c (n + 1) hn h0, pay2_2_apply, pay1_2_apply, zero_add, prod2_apply V c ⟨n + 1, hn⟩ p q r s hr hs, h0]
      exact (Finset.sum_range_one _).symm
    · rw [acc2_next V c n hn h0, pay2_2_apply, prod2_apply V c ⟨n + 1, hn⟩ p q r s hr hs,
        ih (Nat.lt_of_succ_lt hn) p q r s (by omega) (by omega),
        show (n + 1) % nKb = n % nKb + 1 by omega, Finset.sum_range_succ _ (n % nKb + 1)]

/-! ## The finished block -/

/-- The layer's result, as the specification states it of the arrays the region finds. -/
abbrev out2 (c : Dev nD) : Cert.Spec.Arr dM dN := (Cert.Spec.dense (xarr2 V c) (warr2 V c) (barr2 V c))

/-- At a point t = (i, j, kLast) the finished block's entry (p, q) is the specification's entry (1024 i + p, 1024 j + q):
    the accumulator holds the whole inner product, the bias row's block holds the bias of that column, and the last
    step is the specification's. -/
theorem done2_apply (c : Dev nD) (t : Fin cfg2.N) (h3 : t.val % nKb = kLast) (p q : Fin 1024) (r : Fin dM) (s : Fin dN)
    (hr : r.val = 1024 * (t.val / nJK) + p.val) (hs : s.val = 1024 * (t.val / nKb % nJb) + q.val) :
    k2_pay3 (F := Ideal) (accAt2 V c t.val t.isLt) (bblk2 V c t) (ix2 p q) = out2 V c (ix2 r s) := by
  rw [pay3_2_apply, acc2_inv V c t.val t.isLt p q r s hr hs, bblk2_apply V c t q s hs,
    show t.val % nKb + 1 = nKb by omega, parts2_sum]
  exact (spec2_apply (xarr2 V c) (warr2 V c) (barr2 V c) r s).symm

/-- The same at any entry of the block and the entry of the array it stands for. -/
theorem done2_at (c : Dev nD) (t : Fin cfg2.N) (h3 : t.val % nKb = kLast) (j : S1024x1024.Idx) (i : (⟨2, ![dM, dN]⟩ : Shape).Idx)
    (h0 : (i 0).val = 1024 * (t.val / nJK) + (j 0).val) (h1 : (i 1).val = 1024 * (t.val / nKb % nJb) + (j 1).val) :
    k2_pay3 (F := Ideal) (accAt2 V c t.val t.isLt) (bblk2 V c t) j = out2 V c i := by
  obtain ⟨p, q, rfl⟩ : ∃ (p q : Fin 1024), j = ix2 p q := ⟨j 0, j 1, eq_ix2 j⟩
  obtain ⟨r, s, rfl⟩ : ∃ (r : Fin dM) (s : Fin dN), i = ix2 r s := ⟨i 0, i 1, eq_ix2 i⟩
  exact done2_apply V c t h3 p q r s h0 h1

/-! ## From the blocks to the array -/

/-- What a point with k = kLast writes back is its block of the specification's result. -/
theorem flushed2_eq (c : Dev nD) (t : Fin cfg2.N) (hf : (cfg2.win 3).flush t = true) :
    (dat2 V c).flushed 3 t = ((cfg2.win 3).blk t).view.read (Elt Ideal) (out2 V c) := by
  have h3 : t.val % nKb = kLast := (flush2_3 t).mp hf
  obtain ⟨-, -, -, -, -, -, e0, e1⟩ := idx2 t
  show (cfg2.win 3).cut (grid2.coords t) ((dat2 V c).after 3 t) = _
  rw [after2_3]
  funext j
  show k2_pay3 (F := Ideal) (accAt2 V c t.val t.isLt) (bblk2 V c t) j = out2 V c (((cfg2.win 3).blk t).view.emb j)
  exact done2_at V c t h3 j (((cfg2.win 3).blk t).view.emb j)
    (by show win2_3.index t (0 : Fin 2) * 1024 + 1 * (j 0).val = _; omega)
    (by show win2_3.index t (1 : Fin 2) * 1024 + 1 * (j 1).val = _; omega)

/-- An entry of the output array is in point t's block iff each coordinate is in the block's range on its axis. -/
theorem mem_blk2 (t : Fin cfg2.N) (i : (⟨2, ![dM, dN]⟩ : Shape).Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole refO).slice (win2_3.rect t)).set ↔ _
  rw [View.set_slice_whole, Rect.mem_set_unit]
  exact Iff.rfl

/-- Every entry (r, s) of the output array is written back: by the point (r / 1024, s / 1024, kLast). -/
theorem cover2 (i : (⟨2, ![dM, dN]⟩ : Shape).Idx) :
    ∃ t : Fin cfg2.N, (cfg2.win 3).flush t = true ∧ i ∈ ((cfg2.win 3).blk t).view.set := by
  have hi0 : (i 0).val < dM := idx2_lt0 i
  have hi1 : (i 1).val < dN := idx2_lt1 i
  have hN : cfg2.N = nPt := N_2
  obtain ⟨t, ht⟩ : ∃ t : Fin cfg2.N, t.val = ((i 0).val / 1024 * nJb + (i 1).val / 1024) * nKb + kLast :=
    ⟨⟨((i 0).val / 1024 * nJb + (i 1).val / 1024) * nKb + kLast, by rw [hN]; omega⟩, rfl⟩
  obtain ⟨-, -, -, -, -, -, e0, e1⟩ := idx2 t
  refine ⟨t, (flush2_3 t).mpr (by omega), ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- THE VALUE of pallas call 2: after the region the output array holds the specification's layer of the arrays the
    region found. -/
theorem value2 (c : Dev nD) :
    (dat2 (F := Ideal) V c).arrAt 3 cfg2.N = (Cert.Spec.dense (V c refX) (V c refW) (V c refB)) :=
  (dat2 V c).arrAt_eq_of_cover 3 (out2 V c) (flushed2_eq V c) cover2

end Cert.KernelIdeal.Hand
end
-- ==== Proof.Ref.RefValue.lean ====
/-
  The reference program's final stage, read at the ideal instance (floats are extended reals and every
  operation is exact), is the three-layer network of the common specification:
      out = dense (relu (dense (relu (dense x W1 b1)) W2 b2)) W3 b3,
  where dense X W B has entry (i, j) equal to the sum over k of X[i, k] * W[k, j], plus B[0, j], and relu is
  the entrywise maximum with the float zero. W1, W2, W3 are the program's transposed weight stages, kept
  as opaque arrays; b1, b2, b3 are the bias vectors seen as one-row matrices.

  Each layer is proved entry by entry. At the entry (p, q) the program's contraction reads the left operand
  at (p, k) and the right operand at (k, q), which is the specification's inner product; the bias is
  broadcast twice (vector to one row, one row to every row), so its value at (p, q) is the vector at q;
  the rectifier's second operand is the broadcast float zero. The three layer equations are then chained.
-/
import proofs.«134509_j20693152432262_1_alg».proof.Proof.Gen.ReferenceIdeal.Run
import proofs.«134509_j20693152432262_1_alg».proof.Proof.Gen.ReferenceIdeal.Read
import proofs.«134509_j20693152432262_1_alg».proof.Proof.Spec

noncomputable section

namespace Cert.ReferenceIdeal.RefValue

open Cert.ReferenceIdeal Cert.ReferenceIdeal.Read Idealize.ShloMosaic Idealize.ShloMosaic.ValueIdx

/-- a bias vector as the one-row matrix the specification takes -/
def row {n : ℕ} (b : (⟨1, ![n]⟩ : Shape).Idx → EReal) : Cert.Spec.Arr 1 n :=
  fun ij => b (ValueIdx.ix1 (show Fin n from ij 1))

/-- The one-row matrix of a vector, at row `z` and column `j`, is the vector at `j`. -/
theorem row_ix2 {n : ℕ} (b : (⟨1, ![n]⟩ : Shape).Idx → EReal) (z : Fin 1) (j : Fin n) :
    row b (ix2 z j) = b (ix1 j) := rfl

/-- First layer: the rectified stage after the first contraction is `relu (dense x W1 b1)`.
    At entry (p, q): max (∑ k, x[p, k] * W1[k, q] + b1[q]) 0 on both sides. -/
theorem layer1 (x0 x1 : (⟨S8192x4096, .f32⟩ : BufTy).Contents (Elt Ideal))
    (x2 : (⟨S8192, .f32⟩ : BufTy).Contents (Elt Ideal)) :
    val_main_v21 (F := Ideal) x0 x1 x2
      = Cert.Spec.relu (Cert.Spec.dense x0 (val_main_v16 (F := Ideal) x1) (row x2)) := by
  funext i
  obtain ⟨p, q, rfl⟩ : ∃ (p : Fin 8192) (q : Fin 8192), i = ValueIdx.ix2 p q := ⟨i 0, i 1, ValueIdx.eq_ix2 i⟩
  rw [val_main_v21_apply, val_main_v20_apply, val_main_v17_apply, val_main_v19_apply, val_main_v18_apply,
    val_main_call0_v0_apply, val_main_call0_cst_apply]
  -- the contraction reads the left operand at (p, k) and the right operand at (k, q)
  have el : ∀ k : Fin 4096, lidx_main_v17 (ix2 p q) k = ix2 p k := fun k =>
    funext fun a => Fin.ext (by match a with | ⟨0, _⟩ => rfl | ⟨1, _⟩ => rfl)
  have er : ∀ k : Fin 4096, ridx_main_v17 (ix2 p q) k = ix2 k q := fun k =>
    funext fun a => Fin.ext (by match a with | ⟨0, _⟩ => rfl | ⟨1, _⟩ => rfl)
  -- the twice-broadcast bias at (p, q) is the vector at q
  have eb : idx_main_v18 (idx_main_v19 (ix2 p q)) = ix1 q :=
    funext fun a => Fin.ext (by match a with | ⟨0, _⟩ => rfl)
  simp only [el, er, eb, Ideal.addf_def, Ideal.maximumf_def, Ideal.ofBits_def, Spec.relu_apply, Spec.dense_ix2, row_ix2]

/-- Second layer: the rectified stage after the second contraction is `relu (dense y W2 b2)`, where `y` is
    the first layer's stage. Only the entries of `y` are read, so it stays an opaque array.
    At entry (p, q): max (∑ k, y[p, k] * W2[k, q] + b2[q]) 0 on both sides. -/
theorem layer2 (x0 x1 : (⟨S8192x4096, .f32⟩ : BufTy).Contents (Elt Ideal))
    (x2 : (⟨S8192, .f32⟩ : BufTy).Contents (Elt Ideal))
    (x3 : (⟨S8192x8192, .f32⟩ : BufTy).Contents (Elt Ideal))
    (x4 : (⟨S8192, .f32⟩ : BufTy).Contents (Elt Ideal)) :
    val_main_v43 (F := Ideal) x0 x1 x2 x3 x4
      = Cert.Spec.relu (Cert.Spec.dense (val_main_v21 (F := Ideal) x0 x1 x2) (val_main_v38 (F := Ideal) x3) (row x4)) := by
  funext i
  obtain ⟨p, q, rfl⟩ : ∃ (p : Fin 8192) (q : Fin 8192), i = ValueIdx.ix2 p q := ⟨i 0, i 1, ValueIdx.eq_ix2 i⟩
  rw [val_main_v43_apply, val_main_v42_apply, val_main_v39_apply, val_main_v41_apply, val_main_v40_apply,
    val_main_call1_v0_apply, val_main_call1_cst_apply]
  generalize val_main_v21 (F := Ideal) x0 x1 x2 = y
  generalize val_main_v38 (F := Ideal) x3 = w
  -- the contraction reads the left operand at (p, k) and the right operand at (k, q)
  have el : ∀ k : Fin 8192, lidx_main_v39 (ix2 p q) k = ix2 p k := fun k =>
    funext fun a => Fin.ext (by match a with | ⟨0, _⟩ => rfl | ⟨1, _⟩ => rfl)
  have er : ∀ k : Fin 8192, ridx_main_v39 (ix2 p q) k = ix2 k q := fun k =>
    funext fun a => Fin.ext (by match a with | ⟨0, _⟩ => rfl | ⟨1, _⟩ => rfl)
  -- the twice-broadcast bias at (p, q) is the vector at q
  have eb : idx_main_v40 (idx_main_v41 (ix2 p q)) = ix1 q :=
    funext fun a => Fin.ext (by match a with | ⟨0, _⟩ => rfl)
  simp only [el, er, eb, Ideal.addf_def, Ideal.maximumf_def, Ideal.ofBits_def, Spec.relu_apply, Spec.dense_ix2, row_ix2]

/-- Third layer: the final stage is `dense y W3 b3` (no rectifier), where `y` is the second layer's stage.
    At entry (p, q): ∑ k, y[p, k] * W3[k, q] + b3[q] on both sides. -/
theorem layer3 (x0 x1 : (⟨S8192x4096, .f32⟩ : BufTy).Contents (Elt Ideal))
    (x2 : (⟨S8192, .f32⟩ : BufTy).Contents (Elt Ideal))
    (x3 : (⟨S8192x8192, .f32⟩ : BufTy).Contents (Elt Ideal))
    (x4 : (⟨S8192, .f32⟩ : BufTy).Contents (Elt Ideal))
    (x5 : (⟨S4096x8192, .f32⟩ : BufTy).Contents (Elt Ideal))
    (x6 : (⟨S4096, .f32⟩ : BufTy).Contents (Elt Ideal)) :
    val_main_v64 (F := Ideal) x0 x1 x2 x3 x4 x5 x6
      = Cert.Spec.dense (val_main_v43 (F := Ideal) x0 x1 x2 x3 x4) (val_main_v60 (F := Ideal) x5) (row x6) := by
  funext i
  obtain ⟨p, q, rfl⟩ : ∃ (p : Fin 8192) (q : Fin 4096), i = ValueIdx.ix2 p q := ⟨i 0, i 1, ValueIdx.eq_ix2 i⟩
  rw [val_main_v64_apply, val_main_v61_apply, val_main_v63_apply, val_main_v62_apply]
  generalize val_main_v43 (F := Ideal) x0 x1 x2 x3 x4 = y
  generalize val_main_v60 (F := Ideal) x5 = w
  -- the contraction reads the left operand at (p, k) and the right operand at (k, q)
  have el : ∀ k : Fin 8192, lidx_main_v61 (ix2 p q) k = ix2 p k := fun k =>
    funext fun a => Fin.ext (by match a with | ⟨0, _⟩ => rfl | ⟨1, _⟩ => rfl)
  have er : ∀ k : Fin 8192, ridx_main_v61 (ix2 p q) k = ix2 k q := fun k =>
    funext fun a => Fin.ext (by match a with | ⟨0, _⟩ => rfl | ⟨1, _⟩ => rfl)
  -- the twice-broadcast bias at (p, q) is the vector at q
  have eb : idx_main_v62 (idx_main_v63 (ix2 p q)) = ix1 q :=
    funext fun a => Fin.ext (by match a with | ⟨0, _⟩ => rfl)
  simp only [el, er, eb, Ideal.addf_def, Spec.dense_ix2, row_ix2]

/-- The reference's result is the specification's three-layer network of its inputs: the three layer
    equations composed, innermost last. -/
theorem ref_layers (x0 x1 : (⟨S8192x4096, .f32⟩ : BufTy).Contents (Elt Ideal))
    (x2 : (⟨S8192, .f32⟩ : BufTy).Contents (Elt Ideal))
    (x3 : (⟨S8192x8192, .f32⟩ : BufTy).Contents (Elt Ideal))
    (x4 : (⟨S8192, .f32⟩ : BufTy).Contents (Elt Ideal))
    (x5 : (⟨S4096x8192, .f32⟩ : BufTy).Contents (Elt Ideal))
    (x6 : (⟨S4096, .f32⟩ : BufTy).Contents (Elt Ideal)) :
    Cert.ReferenceIdeal.Read.val_main_v64 (F := Ideal) x0 x1 x2 x3 x4 x5 x6
      = Cert.Spec.dense (Cert.Spec.relu (Cert.Spec.dense (Cert.Spec.relu (Cert.Spec.dense x0
            (Cert.ReferenceIdeal.Read.val_main_v16 (F := Ideal) x1) (row x2)))
          (Cert.ReferenceIdeal.Read.val_main_v38 (F := Ideal) x3) (row x4)))
        (Cert.ReferenceIdeal.Read.val_main_v60 (F := Ideal) x5) (row x6) := by
  rw [layer3, layer2, layer1]

end Cert.ReferenceIdeal.RefValue

end
-- ==== Proof.KI.HostIn.lean ====
/-
  What each host stretch hands to the pipelined region that follows it, at the ideal instance.

  Before each of the three regions the program prepares three arrays: the activations (for the first region the
  input narrowed to the 16-bit format, for the later ones the previous region's output array, which the stretch
  does not touch), the weights, and the bias vector reshaped to a matrix of one row.  The weights are produced by
  the same sequence of array operations the reference program applies to the same argument (absolute value, the
  mean as a threshold, the mask of entries above it, the masked mean as a scale, sign times scale times mask,
  transposition), followed by a narrowing to the 16-bit format.  At the ideal instance every float format is the
  extended reals and a narrowing is the identity, so the prepared weights are the reference's transposed weight
  stage term for term, and the reshaped bias read at (0, j) is the vector at j.
-/
import proofs.«134509_j20693152432262_1_alg».proof.Proof.KI.Run
import proofs.«134509_j20693152432262_1_alg».proof.Proof.Ref.RefValue
import Idealize.ShloMosaic.Lib.StableHlo.Run
import Idealize.ShloMosaic.Lib.Pipeline.Value
import Idealize.ShloMosaic.Lib.ValueLayout

set_option maxRecDepth 16384

noncomputable section

namespace Cert.KernelIdeal.Hand

open Idealize.ShloMosaic Idealize.ShloMosaic.TcCoe
open Idealize.SL.Sem
open Idealize.ShloMosaic.StableHlo
open Cert.KernelIdeal Cert.KernelIdeal.Gen
open Cert.ReferenceIdeal.Read (val_main_v0 val_main_v1 val_main_v2 val_main_v3 val_main_v4 val_main_v5 val_main_v6 val_main_v7
  val_main_v8 val_main_v9 val_main_v10 val_main_v11 val_main_v12 val_main_v13 val_main_v14 val_main_v15 val_main_v16
  val_main_cst val_main_cst_0 val_main_cst_1 val_main_cst_2 val_main_cst_3 val_main_cst_4
  val_main_v22 val_main_v23 val_main_v24 val_main_v25 val_main_v26 val_main_v27 val_main_v28 val_main_v29 val_main_v30
  val_main_v31 val_main_v32 val_main_v33 val_main_v34 val_main_v35 val_main_v36 val_main_v37 val_main_v38
  val_main_cst_5 val_main_cst_6 val_main_cst_7 val_main_cst_8 val_main_cst_9 val_main_cst_10
  val_main_v44 val_main_v45 val_main_v46 val_main_v47 val_main_v48 val_main_v49 val_main_v50 val_main_v51 val_main_v52
  val_main_v53 val_main_v54 val_main_v55 val_main_v56 val_main_v57 val_main_v58 val_main_v59 val_main_v60
  val_main_cst_11 val_main_cst_12 val_main_cst_13 val_main_cst_14 val_main_cst_15 val_main_cst_16)

variable (m : (ℓ : Loc nD τ sig) → Buf (Elt Ideal) ℓ) (c : Dev nD)

/-! ## The arguments as the later stretches read them

The second and third stretches read their operands off the buffers as the preceding region left them. An argument
array is none of a region's four arrays and no stretch writes it, so it still holds its launch contents. -/

theorem W2_main_arg3 : W2 m c (Proc.devRef .tc main_arg3) = m ((c : Thread nD τ).loc main_arg3) :=
  (W2_of_ne m c main_arg3 (by decide)).trans
    (StableHlo.after_of_writes_sub hostOps0 _ hostOps0_writes (by decide))
theorem W2_main_arg4 : W2 m c (Proc.devRef .tc main_arg4) = m ((c : Thread nD τ).loc main_arg4) :=
  (W2_of_ne m c main_arg4 (by decide)).trans
    (StableHlo.after_of_writes_sub hostOps0 _ hostOps0_writes (by decide))
theorem W4_main_arg5 : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = m ((c : Thread nD τ).loc main_arg5) := StableHlo.after_of_writes_sub hostOps0 _ hostOps0_writes (by decide)
theorem W4_main_arg6 : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = m ((c : Thread nD τ).loc main_arg6) := StableHlo.after_of_writes_sub hostOps0 _ hostOps0_writes (by decide)

/-! ## Before the first region -/

/-- The activations: the first argument narrowed to the 16-bit format, which at the ideal instance is the argument. -/
theorem in0_x : U1 m c main_v0 = m ((c : Thread nD τ).loc main_arg0) := by
  show StableHlo.after hostOps0 (fun b => m (c, b)) (Proc.devRef .tc main_v0) = _
  after_results_simp
  rfl

set_option maxHeartbeats 4000000 in
/-- The weights: the reference's transposed first weight stage of the second argument. Both sides are the same nest
    of array operations on the argument; the outermost narrowing on the left is the identity. -/
theorem in0_w : U1 m c main_v18
    = Cert.ReferenceIdeal.Read.val_main_v16 (F := Ideal) (m ((c : Thread nD τ).loc main_arg1)) := by
  show StableHlo.after hostOps0 (fun b => m (c, b)) (Proc.devRef .tc main_v18) = _
  after_results_simp
  show _ = val_main_v16 (F := Ideal) (m (c, Proc.devRef .tc main_arg1))
  generalize m (c, Proc.devRef .tc main_arg1) = x1
  simp only [val_main_v16, val_main_v15, val_main_v14, val_main_v13, val_main_v12, val_main_v11, val_main_v10,
    val_main_v9, val_main_v8, val_main_v7, val_main_v6, val_main_v5, val_main_v4, val_main_v3, val_main_v2,
    val_main_v1, val_main_v0, val_main_cst, val_main_cst_0, val_main_cst_1, val_main_cst_2, val_main_cst_3,
    val_main_cst_4]
  rfl

/-- The bias: the third argument, a vector of 8192 entries, reshaped to one row; at (z, j) it is the vector at j. -/
theorem in0_b : U1 m c main_v19 = Cert.ReferenceIdeal.RefValue.row (m ((c : Thread nD τ).loc main_arg2)) := by
  show StableHlo.after hostOps0 (fun b => m (c, b)) (Proc.devRef .tc main_v19) = _
  after_results_simp
  funext ij
  obtain ⟨z, j, rfl⟩ : ∃ (z : Fin 1) (j : Fin 8192), ij = ValueIdx.ix2 z j := ⟨ij 0, ij 1, ValueIdx.eq_ix2 ij⟩
  exact ValueIdx.shapeCast_a_1a_apply _ _ z j

/-! ## Before the second region -/

/-- The activations: the first region's output array as that region left it; the second stretch does not write it. -/
theorem in1_x : U3 m c main_v20 = (dat0 (U1 m) c).arrAt 3 cfg0.N :=
  (StableHlo.after_of_writes_sub hostOps1 _ hostOps1_writes (by decide)).trans (W2_arr m c 3)

set_option maxHeartbeats 4000000 in
/-- The weights: the reference's transposed second weight stage of the fourth argument. -/
theorem in1_w : U3 m c main_v38
    = Cert.ReferenceIdeal.Read.val_main_v38 (F := Ideal) (m ((c : Thread nD τ).loc main_arg3)) := by
  show StableHlo.after hostOps1 (W2 m c) (Proc.devRef .tc main_v38) = _
  after_results_simp
  rw [W2_main_arg3 m c]
  generalize m ((c : Thread nD τ).loc main_arg3) = x3
  simp only [val_main_v38, val_main_v37, val_main_v36, val_main_v35, val_main_v34, val_main_v33, val_main_v32,
    val_main_v31, val_main_v30, val_main_v29, val_main_v28, val_main_v27, val_main_v26, val_main_v25, val_main_v24,
    val_main_v23, val_main_v22, val_main_cst_5, val_main_cst_6, val_main_cst_7, val_main_cst_8, val_main_cst_9,
    val_main_cst_10]
  rfl

/-- The bias: the fifth argument reshaped to one row. -/
theorem in1_b : U3 m c main_v39 = Cert.ReferenceIdeal.RefValue.row (m ((c : Thread nD τ).loc main_arg4)) := by
  show StableHlo.after hostOps1 (W2 m c) (Proc.devRef .tc main_v39) = _
  after_results_simp
  rw [W2_main_arg4 m c]
  funext ij
  obtain ⟨z, j, rfl⟩ : ∃ (z : Fin 1) (j : Fin 8192), ij = ValueIdx.ix2 z j := ⟨ij 0, ij 1, ValueIdx.eq_ix2 ij⟩
  exact ValueIdx.shapeCast_a_1a_apply _ _ z j

/-! ## Before the third region -/

/-- The activations: the second region's output array as that region left it; the third stretch does not write it. -/
theorem in2_x : U5 m c main_v40 = (dat1 (U3 m) c).arrAt 3 cfg1.N :=
  (StableHlo.after_of_writes_sub hostOps2 _ hostOps2_writes (by decide)).trans (W4_arr m c 3)

set_option maxHeartbeats 4000000 in
/-- The weights: the reference's transposed third weight stage of the sixth argument. -/
theorem in2_w : U5 m c main_v58
    = Cert.ReferenceIdeal.Read.val_main_v60 (F := Ideal) (m ((c : Thread nD τ).loc main_arg5)) := by
  show StableHlo.after hostOps2 (W4 m c) (Proc.devRef .tc main_v58) = _
  after_results_simp
  rw [W4_main_arg5 m c]
  generalize m ((c : Thread nD τ).loc main_arg5) = x5
  simp only [val_main_v60, val_main_v59, val_main_v58, val_main_v57, val_main_v56, val_main_v55, val_main_v54,
    val_main_v53, val_main_v52, val_main_v51, val_main_v50, val_main_v49, val_main_v48, val_main_v47, val_main_v46,
    val_main_v45, val_main_v44, val_main_cst_11, val_main_cst_12, val_main_cst_13, val_main_cst_14, val_main_cst_15,
    val_main_cst_16]
  rfl

/-- The bias: the seventh argument, a vector of 4096 entries, reshaped to one row. -/
theorem in2_b : U5 m c main_v59 = Cert.ReferenceIdeal.RefValue.row (m ((c : Thread nD τ).loc main_arg6)) := by
  show StableHlo.after hostOps2 (W4 m c) (Proc.devRef .tc main_v59) = _
  after_results_simp
  rw [W4_main_arg6 m c]
  funext ij
  obtain ⟨z, j, rfl⟩ : ∃ (z : Fin 1) (j : Fin 4096), ij = ValueIdx.ix2 z j := ⟨ij 0, ij 1, ValueIdx.eq_ix2 ij⟩
  exact ValueIdx.shapeCast_a_1a_apply _ _ z j

end Cert.KernelIdeal.Hand

end
-- ==== Proof.Algebraic.lean ====
/-
  The value claim: at the ideal instance the kernel program and the reference end with equal results.

  Both results are the same function `net` of the seven argument arrays: three dense layers x ↦ x · Wᵗ + b, the
  first two followed by the rectifier, where Wᵗ is the transposed ternarised weight matrix (named here by the
  reference's own stage of it; the kernel program computes it by the same host operations).  On the kernel's side
  the result array is the third region's output array, each region's output is the dense layer of the arrays the
  region was entered with, and those arrays are the previous region's output, the ternarised weights and the bias
  row.  On the reference's side the result is read layer by layer off its run.
-/
import proofs.«134509_j20693152432262_1_alg».proof.Defs
import proofs.«134509_j20693152432262_1_alg».proof.Proof.Gen.KernelIdeal
import proofs.«134509_j20693152432262_1_alg».proof.Proof.Gen.ReferenceIdeal
import proofs.«134509_j20693152432262_1_alg».proof.Proof.Gen.Pre_finite_inputs
import proofs.«134509_j20693152432262_1_alg».proof.Proof.Gen.ReferenceIdeal.Run
import proofs.«134509_j20693152432262_1_alg».proof.Proof.Gen.ReferenceIdeal.Read
import proofs.«134509_j20693152432262_1_alg».proof.Proof.KI.Run
import proofs.«134509_j20693152432262_1_alg».proof.Proof.KI.Value0
import proofs.«134509_j20693152432262_1_alg».proof.Proof.KI.Value1
import proofs.«134509_j20693152432262_1_alg».proof.Proof.KI.Value2
import proofs.«134509_j20693152432262_1_alg».proof.Proof.KI.HostIn
import proofs.«134509_j20693152432262_1_alg».proof.Proof.Ref.RefValue
import proofs.«134509_j20693152432262_1_alg».proof.Proof.Spec

set_option maxRecDepth 16384

noncomputable section

namespace Cert.Proof
open Idealize.ShloMosaic Idealize.ShloMosaic.TcCoe Idealize.SL.Sem
open Cert.KernelIdeal.Hand

/-- The network's result as a function of the seven argument arrays: three dense layers, the first two rectified,
    over the transposed ternarised weights (the reference's own stages of them). -/
def net (x0 x1 : (⟨Cert.ReferenceIdeal.S8192x4096, .f32⟩ : BufTy).Contents (Elt Ideal)) (x2 : (⟨Cert.ReferenceIdeal.S8192, .f32⟩ : BufTy).Contents (Elt Ideal))
    (x3 : (⟨Cert.ReferenceIdeal.S8192x8192, .f32⟩ : BufTy).Contents (Elt Ideal)) (x4 : (⟨Cert.ReferenceIdeal.S8192, .f32⟩ : BufTy).Contents (Elt Ideal))
    (x5 : (⟨Cert.ReferenceIdeal.S4096x8192, .f32⟩ : BufTy).Contents (Elt Ideal)) (x6 : (⟨Cert.ReferenceIdeal.S4096, .f32⟩ : BufTy).Contents (Elt Ideal)) : Cert.Spec.Arr 8192 4096 :=
  Cert.Spec.dense (Cert.Spec.relu (Cert.Spec.dense (Cert.Spec.relu (Cert.Spec.dense x0 (Cert.ReferenceIdeal.Read.val_main_v16 (F := Ideal) x1) (Cert.ReferenceIdeal.RefValue.row x2)))
      (Cert.ReferenceIdeal.Read.val_main_v38 (F := Ideal) x3) (Cert.ReferenceIdeal.RefValue.row x4))) (Cert.ReferenceIdeal.Read.val_main_v60 (F := Ideal) x5) (Cert.ReferenceIdeal.RefValue.row x6)

/-- The kernel program's result array, region by region from the last to the first. -/
theorem kernel_value (m : (ℓ : Loc Cert.KernelIdeal.nD Cert.KernelIdeal.τ Cert.KernelIdeal.sig) → Buf (Elt Ideal) ℓ) (c : Dev Cert.KernelIdeal.nD) :
    (dat2 (F := Ideal) (U5 m) c).arrAt 3 Cert.KernelIdeal.cfg2.N
      = net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  rw [value2 (U5 m) c, in2_x m c, in2_w m c, in2_b m c, value1 (U3 m) c, in1_x m c, in1_w m c, in1_b m c, value0 (U1 m) c, in0_x m c, in0_w m c, in0_b m c]
  rfl

/-- Both programs run, from memories agreeing on the arguments, to the same result `net` of the arguments. -/
theorem algebraic : Cert.algebraic_KernelIdeal_ReferenceIdeal := by
  intro m ρ m' ρ' _ hagree
  refine ⟨fun c => net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)), ?_, ?_⟩
  · exact (θ_run Cert.KernelIdeal.defs _ _).mono (fun _ h c => ⟨(h c).1.trans (kernel_value m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v64_eq, Cert.ReferenceIdeal.RefValue.ref_layers,
      (hagree c).1, (hagree c).2.1, (hagree c).2.2.1, (hagree c).2.2.2.1, (hagree c).2.2.2.2.1, (hagree c).2.2.2.2.2.1, (hagree c).2.2.2.2.2.2]
    rfl

end Cert.Proof
end
-- ==== Proof.lean ====
/-
  The certificate of the ternary-weight three-layer perceptron kernel against its jnp reference.

  Frames.  Each program runs to the end, faults nowhere and leaves its argument arrays unchanged.  The kernel
  program (read at the word level and at the ideal instance) is three stretches of host operations each followed by
  one pipelined region; its run is assembled from the three regions' body obligations (Proof/KB/Run.lean for the
  word level, Proof/KI/Run.lean for the ideal instance).  The reference has no kernel: its frame is its run with the
  result dropped.

  Value.  At the ideal instance both programs compute, layer by layer, the affine map x ↦ x · Wᵗ + b followed (in
  the first two layers) by the rectifier, with Wᵗ the transposed ternarised weights, which both programs obtain
  from the weight argument by the same host operations.  The kernel accumulates each inner product block by block
  along the contracted axis; on the extended reals a finite sum may be split into blocks, so the two agree entry by
  entry (Proof/Algebraic.lean).

  The ideal pass rewrote nothing, so the idealization claim is trivial.
-/
import proofs.«134509_j20693152432262_1_alg».proof.Defs
import proofs.«134509_j20693152432262_1_alg».proof.Proof.Gen.Kernel
import proofs.«134509_j20693152432262_1_alg».proof.Proof.Gen.KernelIdeal
import proofs.«134509_j20693152432262_1_alg».proof.Proof.Gen.ReferenceIdeal
import proofs.«134509_j20693152432262_1_alg».proof.Proof.Gen.Pre_finite_inputs
import proofs.«134509_j20693152432262_1_alg».proof.Proof.Gen.ReferenceIdeal.Run
import proofs.«134509_j20693152432262_1_alg».proof.Proof.KB.Run
import proofs.«134509_j20693152432262_1_alg».proof.Proof.KI.Run
import proofs.«134509_j20693152432262_1_alg».proof.Proof.Algebraic
import Idealize.ShloMosaic.Adequacy
import Idealize.ShloMosaic.Init

noncomputable section

namespace Cert.Proof

open Idealize.ShloMosaic Idealize.SL.Sem

/-- The word-level kernel program's frame. -/
theorem frame_k : Cert.frame_Kernel := fun m ρ _ => Cert.Kernel.Hand.frame (F := Bits) m ρ
/-- The idealized kernel program's frame. -/
theorem frame_ki : Cert.frame_KernelIdeal := fun m ρ _ => Cert.KernelIdeal.Hand.frame (F := Ideal) m ρ
/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
